-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg7 : FVec F S16x1024 .f32) (main_arg8 : FVec F S1024x16 .f32) (main_v33 : IVec S_ 1) : IVec S_ 1 :=
  let main_v34 : FVec F S16x1024 .f32 := Host.absf main_arg7
  let main_cst_12 : FVec F S_ .f32 := constant S_ .f32 0x7F800000#32
  let main_v35 : FVec F S16x1024 .f32 := broadcastInDim S16x1024 ![] bcast_S_S16x1024 main_cst_12
  let main_v36 : IVec S16x1024 1 := cmpf .olt main_v34 main_v35
  let main_c_13 : IVec S_ 1 := constantI S_ 1 1#1
  let main_v37 : IVec S_ 1 := (fun x v => Host.reduce IntOp.andi x v reducesTo_S16x1024_S_d0_1 h_S_) main_v36 main_c_13
  let main_v38 : IVec S_ 1 := andi main_v33 main_v37
  let main_v39 : FVec F S1024x16 .f32 := Host.absf main_arg8
  let main_cst_14 : FVec F S_ .f32 := constant S_ .f32 0x7F800000#32
  let main_v40 : FVec F S1024x16 .f32 := broadcastInDim S1024x16 ![] bcast_S_S1024x16 main_cst_14
  let main_v41 : IVec S1024x16 1 := cmpf .olt main_v39 main_v40
  let main_c_15 : IVec S_ 1 := constantI S_ 1 1#1
  let main_v42 : IVec S_ 1 := (fun x v => Host.reduce IntOp.andi x v reducesTo_S1024x16_S_d0_1 h_S_) main_v41 main_c_15
  let main_v43 : IVec S_ 1 := andi main_v38 main_v42
  main_v43

def fn_part1 {F : FTy → Type} [FloatOps F] (main_arg4 : FVec F S1024x16 .f32) (main_arg5 : FVec F S16x1024 .f32) (main_arg6 : FVec F S1024x16 .f32) (main_arg7 : FVec F S16x1024 .f32) (main_arg8 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) (main_arg7 : FVec F S16x1024 .f32) (main_arg8 : FVec F S1024x16 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S16384x1024 : Shape := ⟨2, ![16384, 1024]⟩
abbrev S1024x3072 : Shape := ⟨2, ![1024, 3072]⟩
abbrev S48x1024 : Shape := ⟨2, ![48, 1024]⟩
abbrev S_ : Shape := ⟨0, ![]⟩
abbrev S128x1024 : Shape := ⟨2, ![128, 1024]⟩
abbrev S1024x128 : Shape := ⟨2, ![1024, 128]⟩
abbrev S1024x3200 : Shape := ⟨2, ![1024, 3200]⟩
abbrev S16x3072 : Shape := ⟨2, ![16, 3072]⟩
abbrev S48x3072 : Shape := ⟨2, ![48, 3072]⟩
abbrev S128x3072 : Shape := ⟨2, ![128, 3072]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S512x3200 : Shape := ⟨2, ![512, 3200]⟩
abbrev S512x128 : Shape := ⟨2, ![512, 128]⟩
abbrev S8x2048x3072 : Shape := ⟨3, ![8, 2048, 3072]⟩

abbrev nBuf : Space → Nat
  | .hbm => 34
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16x1024, .f32⟩
  | .hbm, ⟨8, _⟩ => ⟨S1024x16, .f32⟩
  | .hbm, ⟨9, _⟩ => ⟨S16384x1024, .f32⟩
  | .hbm, ⟨10, _⟩ => ⟨S1024x3072, .f32⟩
  | .hbm, ⟨11, _⟩ => ⟨S48x1024, .f32⟩
  | .hbm, ⟨12, _⟩ => ⟨S_, .i32⟩
  | .hbm, ⟨13, _⟩ => ⟨S_, .f32⟩
  | .hbm, ⟨14, _⟩ => ⟨S128x1024, .f32⟩
  | .hbm, ⟨15, _⟩ => ⟨S1024x128, .f32⟩
  | .hbm, ⟨16, _⟩ => ⟨S1024x3200, .f32⟩
  | .hbm, ⟨17, _⟩ => ⟨S1024x3200, .bf16⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S16x3072, .f32⟩
  | .hbm, ⟨22, _⟩ => ⟨S16x1024, .f32⟩
  | .hbm, ⟨23, _⟩ => ⟨S16x3072, .f32⟩
  | .hbm, ⟨24, _⟩ => ⟨S16x1024, .f32⟩
  | .hbm, ⟨25, _⟩ => ⟨S16x3072, .f32⟩
  | .hbm, ⟨26, _⟩ => ⟨S48x3072, .f32⟩
  | .hbm, ⟨27, _⟩ => ⟨S_, .i32⟩
  | .hbm, ⟨28, _⟩ => ⟨S_, .f32⟩
  | .hbm, ⟨29, _⟩ => ⟨S128x3072, .f32⟩
  | .hbm, ⟨30, _⟩ => ⟨S128x3072, .bf16⟩
  | .hbm, ⟨31, _⟩ => ⟨S1x3072, .f32⟩
  | .hbm, ⟨32, _⟩ => ⟨S16384x3072, .f32⟩
  | .hbm, ⟨33, _⟩ => ⟨S8x2048x3072, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S128x3072, .bf16⟩
  | .local _ .vmem, ⟨4, _⟩ => ⟨S1x3072, .f32⟩
  | .local _ .vmem, ⟨5, _⟩ => ⟨S512x3072, .f32⟩
  | .local _ .vmem, ⟨6, _⟩ => ⟨S512x3072, .f32⟩
  | .local _ .vmem, ⟨7, _⟩ => ⟨S512x3200, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x1024_S16384x1024 : S8x2048x1024.ShapeCasts S16384x1024
  transposes_S3072x1024_S1024x3072_1_0 : S3072x1024.Transposes [1, 0] S1024x3072
  concatenates_S16x1024_S16x1024_S16x1024_S48x1024_d0 : Shape.Concatenates [S16x1024, S16x1024, S16x1024] S48x1024 0
  pads_S48x1024_S128x1024_0800_000 : S48x1024.Pads (![0, 0] : Fin 2 → Nat) ![80, 0] ![0, 0] S128x1024
  h_S_ : 0 < S_.numel
  transposes_S128x1024_S1024x128_1_0 : S128x1024.Transposes [1, 0] S1024x128
  concatenates_S1024x3072_S1024x128_S1024x3200_d1 : Shape.Concatenates [S1024x3072, S1024x128] S1024x3200 1
  bitsLt_bf16_f32 : FTy.bits .bf16 < FTy.bits .f32
  bcast_S_S16x1024 : S_.BroadcastsInDim S16x1024 (![] : Fin 0 → Fin S16x1024.rank)
  transposes_S1024x16_S16x1024_1_0 : S1024x16.Transposes [1, 0] S16x1024
  concatenates_S16x1024_S16x1024_S16x1024_S16x3072_d1 : Shape.Concatenates [S16x1024, S16x1024, S16x1024] S16x3072 1
  concatenates_S16x3072_S16x3072_S16x3072_S48x3072_d0 : Shape.Concatenates [S16x3072, S16x3072, S16x3072] S48x3072 0
  pads_S48x3072_S128x3072_0800_000 : S48x3072.Pads (![0, 0] : Fin 2 → Nat) ![80, 0] ![0, 0] S128x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3200_S1024x3200_0_0 : ∀ a, (![0, 0] : Fin 2 → Nat) a + S1024x3200.size a ≤ S1024x3200.size a
  h_S1024x3200 : 0 < S1024x3200.numel
  shapeCasts_S1024x3200_S1024x3200 : S1024x3200.ShapeCasts S1024x3200
  inb_S512x3200_S512x3200_0_0 : ∀ a, (![0, 0] : Fin 2 → Nat) a + S512x3200.size a ≤ S512x3200.size a
  h_S512x3200 : 0 < S512x3200.numel
  shapeCasts_S512x3200_S512x3200 : S512x3200.ShapeCasts S512x3200
  inb_S512x3200_S512x3072_0_0 : ∀ a, (![0, 0] : Fin 2 → Nat) a + S512x3072.size a ≤ S512x3200.size a
  h_S512x3072 : 0 < S512x3072.numel
  inb_S512x3200_S512x128_0_3072 : ∀ a, (![0, 3072] : Fin 2 → Nat) a + S512x128.size a ≤ S512x3200.size a
  h_S512x128 : 0 < S512x128.numel
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  shapeCasts_S16384x3072_S8x2048x3072 : S16384x3072.ShapeCasts S8x2048x3072
  dot_S512x1024_S1024x3200_S512x3200_1_0_0_1_n_n_wf : DotDims.WF S512x1024 S1024x3200 S512x3200 [1] [0] [0] [1] [] []
  dot_S512x128_S128x3072_S512x3072_1_0_0_1_n_n_wf : DotDims.WF S512x128 S128x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3200.size a ≤ S1024x3200.size a
  hwx0_1 : ∀ i : grid0.Coords, EltTy.bits .bf16 = 32 ∨ (Rect.block (s := S1024x3200) S1024x3200.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x3072.size a ≤ S128x3072.size a
  hwx0_2 : ∀ i : grid0.Coords, EltTy.bits .bf16 = 32 ∨ (Rect.block (s := S128x3072) S128x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S16384x3072.size a
  hwx0_4 : ∀ i : grid0.Coords, EltTy.bits .f32 = 32 ∨ (Rect.block (s := S16384x3072) S512x3072.size (cc0_transform_4 i) (hinb0_4 i)).WholeWords (EltTy.packing .f32)

variable [Facts₀]

def dot_S512x1024_S1024x3200_S512x3200_1_0_0_1_n_n : DotDims S512x1024 S1024x3200 S512x3200 where
  lhsContracting := [1]
  rhsContracting := [0]
  lhsNonContracting := [0]
  rhsNonContracting := [1]
  lhsBatch := []
  rhsBatch := []
  wf := dot_S512x1024_S1024x3200_S512x3200_1_0_0_1_n_n_wf
def dot_S512x128_S128x3072_S512x3072_1_0_0_1_n_n : DotDims S512x128 S128x3072 S512x3072 where
  lhsContracting := [1]
  rhsContracting := [0]
  lhsNonContracting := [0]
  rhsNonContracting := [1]
  lhsBatch := []
  rhsBatch := []
  wf := dot_S512x128_S128x3072_S512x3072_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S512x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S8x2048x3072 : Shape := ⟨3, ![8, 2048, 3072]⟩
abbrev S1x1x3072 : Shape := ⟨3, ![1, 1, 3072]⟩
abbrev S8x2048x16 : Shape := ⟨3, ![8, 2048, 16]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16x1024, .f32⟩
  | .hbm, ⟨8, _⟩ => ⟨S1024x16, .f32⟩
  | .hbm, ⟨9, _⟩ => ⟨S8x2048x3072, .f32⟩
  | .hbm, ⟨10, _⟩ => ⟨S1x1x3072, .f32⟩
  | .hbm, ⟨11, _⟩ => ⟨S8x2048x3072, .f32⟩
  | .hbm, ⟨12, _⟩ => ⟨S8x2048x3072, .f32⟩
  | .hbm, ⟨13, _⟩ => ⟨S8x2048x16, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x16, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S8x2048x16, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S8x2048x3072, .f32⟩
  | .hbm, ⟨29, _⟩ => ⟨S8x2048x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x1024 : S_.BroadcastsInDim S8x2048x1024 (![] : Fin 0 → Fin S8x2048x1024.rank)
  concatenates_S8x2048x1024_S8x2048x1024_S8x2048x1024_S8x2048x3072_d2 : Shape.Concatenates [S8x2048x1024, S8x2048x1024, S8x2048x1024] S8x2048x3072 2
  dot_S8x2048x1024_S3072x1024_S8x2048x3072_2_1_01_0_n_n_wf : DotDims.WF S8x2048x1024 S3072x1024 S8x2048x3072 [2] [1] [0, 1] [0] [] []
  dot_S8x2048x1024_S16x1024_S8x2048x16_2_1_01_0_n_n_wf : DotDims.WF S8x2048x1024 S16x1024 S8x2048x16 [2] [1] [0, 1] [0] [] []
  dot_S8x2048x16_S1024x16_S8x2048x1024_2_1_01_0_n_n_wf : DotDims.WF S8x2048x16 S1024x16 S8x2048x1024 [2] [1] [0, 1] [0] [] []

variable [Facts₀]

def dot_S8x2048x1024_S3072x1024_S8x2048x3072_2_1_01_0_n_n : DotDims S8x2048x1024 S3072x1024 S8x2048x3072 where
  lhsContracting := [2]
  rhsContracting := [1]
  lhsNonContracting := [0, 1]
  rhsNonContracting := [0]
  lhsBatch := []
  rhsBatch := []
  wf := dot_S8x2048x1024_S3072x1024_S8x2048x3072_2_1_01_0_n_n_wf
def dot_S8x2048x1024_S16x1024_S8x2048x16_2_1_01_0_n_n : DotDims S8x2048x1024 S16x1024 S8x2048x16 where
  lhsContracting := [2]
  rhsContracting := [1]
  lhsNonContracting := [0, 1]
  rhsNonContracting := [0]
  lhsBatch := []
  rhsBatch := []
  wf := dot_S8x2048x1024_S16x1024_S8x2048x16_2_1_01_0_n_n_wf
def dot_S8x2048x16_S1024x16_S8x2048x1024_2_1_01_0_n_n : DotDims S8x2048x16 S1024x16 S8x2048x1024 where
  lhsContracting := [2]
  rhsContracting := [1]
  lhsNonContracting := [0, 1]
  rhsNonContracting := [0]
  lhsBatch := []
  rhsBatch := []
  wf := dot_S8x2048x16_S1024x16_S8x2048x1024_2_1_01_0_n_n_wf

class Facts : Prop extends Facts₀ where

variable [Facts]
-- ==== Proof.BitsEntry.lean ====
/-
  The program's @main around its one kernel region. Thirty-two host lines come first: they flatten
  the activations to 16384 rows, lay the dense weight and the three stacked down-projections (padded with
  zero rows from 48 to 128) side by side as one 1024 x 3200 operand, build the 128 x 3072 block-diagonal
  up-projection (each b transposed into its own third, zeros elsewhere, zero rows below row 48), and view
  the bias as one row. One reshape follows the region. None of these lines writes an argument array, so the
  nine arguments are found as launched when the region is entered and end as launched.
  A window's block at a grid point is read off the array the region finds; an input window's staging
  buffer holds that block at every point, whether the point fetches it (the activations, every point) or
  not (the two operands and the bias, fetched once: their block index never moves).
-/
import proofs.«132580_j75041668595954_1_alg».proof.Proof.Gen.Kernel.Launch
import proofs.«132580_j75041668595954_1_alg».proof.Proof.Gen.Kernel.Skeleton
import proofs.«132580_j75041668595954_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before and after the region -/

/-- Core c's buffer contents when the region is entered: the launch memory after the five stretches of host
    lines that precede it. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one reshape after it: it reduces to the
    region continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-- The reshape after the region touches only the result array and its own result buffer. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array a window stages: only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are never written -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the pipeline's post -/

/-- For any proof data whose arrays are the region-entry contents, a run that ends with every buffer no
    window stages as the reshape after the region leaves it has the nine argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

end Cert.Kernel.Around

end
-- ==== Proof.BitsBody.lean ====
/-
  The kernel body at one grid point, and the pipeline around it. The body reads its 512 x 1024 block of
  activations and the two host-built operands, writes the 512 x 3200 product whole into its scratch, reads
  the scratch back as the 512 x 3072 dense part and the 512 x 128 rank part, and stores one whole
  512 x 3072 block: (dense part + bias row) + (rank part times the block-diagonal operand) times 1.0.
  Two more loads (of the scratch before it is written, of the output block before it is stored) feed
  nothing. The scratch is written whole before it is read, so nothing is carried from point to point: the
  region's invariant holds the scratch at some contents, the same before and after every point.
  What the output's staging buffer holds after the body is the body's one store read back; the proof data
  put it at every point, the four inputs stay at their blocks, and the launch theorem for a kernel region
  followed by host lines gives the run, from which the frame follows.
-/
import proofs.«132580_j75041668595954_1_alg».proof.Proof.BitsEntry

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Each window's current staging memref at point t is a whole buffer. -/
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
/-- The scratch the product is kept in between its store and its two loads: a whole buffer of the kernel's own. -/
abbrev scM0 : Memref sig .tc .vmem S512x3200 .f32 := Memref.whole cc0_scratch0
/-- One staging buffer of the output window, through which its contents are stated (the choice does not matter). -/
abbrev VO0_4 : View sig .tc .vmem S512x3072 .f32 := (Memref.whole cc0_stg4_0 : Memref sig .tc .vmem S512x3072 .f32).view

/-- The region's invariant with the scratch as a memref owned at some contents, beside the generator register. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

/-! ## The body's run -/

set_option maxHeartbeats 4000000 in
/-- The pieces the body's store leaves in the output's staging memref, with the proof that on whole memrefs —
    the four inputs' at their contents, the output's and the scratch at anything — the body runs to the
    continuation holding the inputs' as they were, the output's with its pieces written and the scratch at some
    contents. The pieces are what the run finds. -/
noncomputable def kernelRun0 (c : Dev nD) (i : grid0.Coords) (arg1 : Memref sig .tc .vmem S512x1024 .f32) (harg1 : arg1.IsWhole) (arg2 : Memref sig .tc .vmem S1024x3200 .bf16) (harg2 : arg2.IsWhole) (arg3 : Memref sig .tc .vmem S128x3072 .bf16) (harg3 : arg3.IsWhole) (arg4 : Memref sig .tc .vmem S1x3072 .f32) (harg4 : arg4.IsWhole) (arg5 : Memref sig .tc .vmem S512x3072 .f32) (harg5 : arg5.IsWhole) (arg6 : Memref sig .tc .vmem S512x3200 .f32) (harg6 : arg6.IsWhole)
    (x0 : Vec F S512x1024 .f32) (x1 : Vec F S1024x3200 .bf16) (x2 : Vec F S128x3072 .bf16) (x3 : Vec F S1x3072 .f32) :
    { L4 : List (View.Piece (Elt F) S512x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} f)) -∗ K ⟨⟩))
          ⊢ wp frame (wpE (defs₀ (F := F)) Variants.none c none) E (cc0__qkv_lora_kernel i arg1 harg1 arg2 harg2 arg3 harg3 arg4 harg4 arg5 harg5 arg6 harg6) K } := by
  refine ⟨?_, fun E K => ?run⟩
  case run =>
    simp only [cc0__qkv_lora_kernel_eq_skeleton]; unfold cc0__qkv_lora_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact HS0

/-- The body's pieces tile the output block, so they cover it. -/
theorem cover0_4 (c : Dev nD) (i : grid0.Coords) (arg1 : Memref sig .tc .vmem S512x1024 .f32) (harg1 : arg1.IsWhole) (arg2 : Memref sig .tc .vmem S1024x3200 .bf16) (harg2 : arg2.IsWhole) (arg3 : Memref sig .tc .vmem S128x3072 .bf16) (harg3 : arg3.IsWhole) (arg4 : Memref sig .tc .vmem S1x3072 .f32) (harg4 : arg4.IsWhole) (arg5 : Memref sig .tc .vmem S512x3072 .f32) (harg5 : arg5.IsWhole) (arg6 : Memref sig .tc .vmem S512x3200 .f32) (harg6 : arg6.IsWhole)
    (x0 : Vec F S512x1024 .f32) (x1 : Vec F S1024x3200 .bf16) (x2 : Vec F S128x3072 .bf16) (x3 : Vec F S1x3072 .f32) (y : S512x3072.Idx) :
    ∃ pc ∈ (kernelRun0 c i arg1 harg1 arg2 harg2 arg3 harg3 arg4 harg4 arg5 harg5 arg6 harg6 x0 x1 x2 x3).1, y ∈ pc.1.set :=
  View.cover_of_tiledL (kernelRun0 c i arg1 harg1 arg2 harg2 arg3 harg3 arg4 harg4 arg5 harg5 arg6 harg6 x0 x1 x2 x3).1 S512x3072.size (by sl_kernel_rfl) y

/-- What the body leaves in the output's staging buffer: its pieces read back. -/
def out0_4 (c : Dev nD) (i : grid0.Coords) (arg1 : Memref sig .tc .vmem S512x1024 .f32) (harg1 : arg1.IsWhole) (arg2 : Memref sig .tc .vmem S1024x3200 .bf16) (harg2 : arg2.IsWhole) (arg3 : Memref sig .tc .vmem S128x3072 .bf16) (harg3 : arg3.IsWhole) (arg4 : Memref sig .tc .vmem S1x3072 .f32) (harg4 : arg4.IsWhole) (arg5 : Memref sig .tc .vmem S512x3072 .f32) (harg5 : arg5.IsWhole) (arg6 : Memref sig .tc .vmem S512x3200 .f32) (harg6 : arg6.IsWhole)
    (x0 : Vec F S512x1024 .f32) (x1 : Vec F S1024x3200 .bf16) (x2 : Vec F S128x3072 .bf16) (x3 : Vec F S1x3072 .f32) : Vec F S512x3072 .f32 :=
  VO0_4.read (Elt F) (VO0_4.writes (Elt F) VO0_4.junk (kernelRun0 c i arg1 harg1 arg2 harg2 arg3 harg3 arg4 harg4 arg5 harg5 arg6 harg6 x0 x1 x2 x3).1)

/-! ## The pipeline's proof data -/

/-- The proof data on core c: the arrays as the region finds them; after the body at point t each input's
    buffer at its block and the output's at what the body's store leaves; the invariant the same at every
    point (the scratch at anything, the generator register untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 c (grid0.coords t) (st0_0 t) (hs0_0 t) (st0_1 t) (hs0_1 t) (st0_2 t) (hs0_2 t) (st0_3 t) (hs0_3 t) (st0_4 t) (hs0_4 t) scM0 (Memref.isWhole_whole _) (iblk m c 0 t) (iblk m c 1 t) (iblk m c 2 t) (iblk m c 3 t)
  Φ _ := Pipeline.ΦA spec0 c
  q _ := fullShare
  owed _ := 0

/-- The proof data's arrays are the region-entry contents (the definition projected, the fold over the host
    lines never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 c (grid0.coords t) (st0_0 t) (hs0_0 t) (st0_1 t) (hs0_1 t) (st0_2 t) (hs0_2 t) (st0_3 t) (hs0_3 t) (st0_4 t) (hs0_4 t) scM0 (Memref.isWhole_whole _) (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point: the inputs' memrefs hold their blocks, the invariant hands over the scratch at some
    contents and takes it back at some contents, and the output's buffer ends at its pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold out0_4
  iintro ⟨⟨HS0, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hg]
  · isplitl [HS0]
    · iexists (scM0.view.read (Elt F) es0); unfold owns; iexists es0; isplitr
      · ipureintro; rfl
      iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state
    has every array of the pipeline at what the proof data give and every other unscoped buffer as the reshape
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Around

end
-- ==== Proof.IdealEntry.lean ====
/-
  The program's @main around its one kernel region. Thirty-two host lines come first: they flatten
  the activations to 16384 rows, lay the dense weight and the three stacked down-projections (padded with
  zero rows from 48 to 128) side by side as one 1024 x 3200 operand, build the 128 x 3072 block-diagonal
  up-projection (each b transposed into its own third, zeros elsewhere, zero rows below row 48), and view
  the bias as one row. One reshape follows the region. None of these lines writes an argument array, so the
  nine arguments are found as launched when the region is entered and end as launched.
  A window's block at a grid point is read off the array the region finds; an input window's staging
  buffer holds that block at every point, whether the point fetches it (the activations, every point) or
  not (the two operands and the bias, fetched once: their block index never moves).
-/
import proofs.«132580_j75041668595954_1_alg».proof.Proof.Gen.KernelIdeal.Launch
import proofs.«132580_j75041668595954_1_alg».proof.Proof.Gen.KernelIdeal.Skeleton
import proofs.«132580_j75041668595954_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before and after the region -/

/-- Core c's buffer contents when the region is entered: the launch memory after the five stretches of host
    lines that precede it. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one reshape after it: it reduces to the
    region continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-- The reshape after the region touches only the result array and its own result buffer. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array a window stages: only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are never written -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the pipeline's post -/

/-- For any proof data whose arrays are the region-entry contents, a run that ends with every buffer no
    window stages as the reshape after the region leaves it has the nine argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

end Cert.KernelIdeal.Around

end
-- ==== Proof.IdealBody.lean ====
/-
  The kernel body at one grid point, and the pipeline around it. The body reads its 512 x 1024 block of
  activations and the two host-built operands, writes the 512 x 3200 product whole into its scratch, reads
  the scratch back as the 512 x 3072 dense part and the 512 x 128 rank part, and stores one whole
  512 x 3072 block: (dense part + bias row) + (rank part times the block-diagonal operand) times 1.0.
  Two more loads (of the scratch before it is written, of the output block before it is stored) feed
  nothing. The scratch is written whole before it is read, so nothing is carried from point to point: the
  region's invariant holds the scratch at some contents, the same before and after every point.
  What the output's staging buffer holds after the body is the body's one store read back; the proof data
  put it at every point, the four inputs stay at their blocks, and the launch theorem for a kernel region
  followed by host lines gives the run, from which the frame follows.
-/
import proofs.«132580_j75041668595954_1_alg».proof.Proof.IdealEntry

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Each window's current staging memref at point t is a whole buffer. -/
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
/-- The scratch the product is kept in between its store and its two loads: a whole buffer of the kernel's own. -/
abbrev scM0 : Memref sig .tc .vmem S512x3200 .f32 := Memref.whole cc0_scratch0
/-- One staging buffer of the output window, through which its contents are stated (the choice does not matter). -/
abbrev VO0_4 : View sig .tc .vmem S512x3072 .f32 := (Memref.whole cc0_stg4_0 : Memref sig .tc .vmem S512x3072 .f32).view

/-- The region's invariant with the scratch as a memref owned at some contents, beside the generator register. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

/-! ## The body's run -/

set_option maxHeartbeats 4000000 in
/-- The pieces the body's store leaves in the output's staging memref, with the proof that on whole memrefs —
    the four inputs' at their contents, the output's and the scratch at anything — the body runs to the
    continuation holding the inputs' as they were, the output's with its pieces written and the scratch at some
    contents. The pieces are what the run finds. -/
noncomputable def kernelRun0 (c : Dev nD) (i : grid0.Coords) (arg1 : Memref sig .tc .vmem S512x1024 .f32) (harg1 : arg1.IsWhole) (arg2 : Memref sig .tc .vmem S1024x3200 .bf16) (harg2 : arg2.IsWhole) (arg3 : Memref sig .tc .vmem S128x3072 .bf16) (harg3 : arg3.IsWhole) (arg4 : Memref sig .tc .vmem S1x3072 .f32) (harg4 : arg4.IsWhole) (arg5 : Memref sig .tc .vmem S512x3072 .f32) (harg5 : arg5.IsWhole) (arg6 : Memref sig .tc .vmem S512x3200 .f32) (harg6 : arg6.IsWhole)
    (x0 : Vec F S512x1024 .f32) (x1 : Vec F S1024x3200 .bf16) (x2 : Vec F S128x3072 .bf16) (x3 : Vec F S1x3072 .f32) :
    { L4 : List (View.Piece (Elt F) S512x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} f)) -∗ K ⟨⟩))
          ⊢ wp frame (wpE (defs₀ (F := F)) Variants.none c none) E (cc0__qkv_lora_kernel i arg1 harg1 arg2 harg2 arg3 harg3 arg4 harg4 arg5 harg5 arg6 harg6) K } := by
  refine ⟨?_, fun E K => ?run⟩
  case run =>
    simp only [cc0__qkv_lora_kernel_eq_skeleton]; unfold cc0__qkv_lora_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact HS0

/-- The body's pieces tile the output block, so they cover it. -/
theorem cover0_4 (c : Dev nD) (i : grid0.Coords) (arg1 : Memref sig .tc .vmem S512x1024 .f32) (harg1 : arg1.IsWhole) (arg2 : Memref sig .tc .vmem S1024x3200 .bf16) (harg2 : arg2.IsWhole) (arg3 : Memref sig .tc .vmem S128x3072 .bf16) (harg3 : arg3.IsWhole) (arg4 : Memref sig .tc .vmem S1x3072 .f32) (harg4 : arg4.IsWhole) (arg5 : Memref sig .tc .vmem S512x3072 .f32) (harg5 : arg5.IsWhole) (arg6 : Memref sig .tc .vmem S512x3200 .f32) (harg6 : arg6.IsWhole)
    (x0 : Vec F S512x1024 .f32) (x1 : Vec F S1024x3200 .bf16) (x2 : Vec F S128x3072 .bf16) (x3 : Vec F S1x3072 .f32) (y : S512x3072.Idx) :
    ∃ pc ∈ (kernelRun0 c i arg1 harg1 arg2 harg2 arg3 harg3 arg4 harg4 arg5 harg5 arg6 harg6 x0 x1 x2 x3).1, y ∈ pc.1.set :=
  View.cover_of_tiledL (kernelRun0 c i arg1 harg1 arg2 harg2 arg3 harg3 arg4 harg4 arg5 harg5 arg6 harg6 x0 x1 x2 x3).1 S512x3072.size (by sl_kernel_rfl) y

/-- What the body leaves in the output's staging buffer: its pieces read back. -/
def out0_4 (c : Dev nD) (i : grid0.Coords) (arg1 : Memref sig .tc .vmem S512x1024 .f32) (harg1 : arg1.IsWhole) (arg2 : Memref sig .tc .vmem S1024x3200 .bf16) (harg2 : arg2.IsWhole) (arg3 : Memref sig .tc .vmem S128x3072 .bf16) (harg3 : arg3.IsWhole) (arg4 : Memref sig .tc .vmem S1x3072 .f32) (harg4 : arg4.IsWhole) (arg5 : Memref sig .tc .vmem S512x3072 .f32) (harg5 : arg5.IsWhole) (arg6 : Memref sig .tc .vmem S512x3200 .f32) (harg6 : arg6.IsWhole)
    (x0 : Vec F S512x1024 .f32) (x1 : Vec F S1024x3200 .bf16) (x2 : Vec F S128x3072 .bf16) (x3 : Vec F S1x3072 .f32) : Vec F S512x3072 .f32 :=
  VO0_4.read (Elt F) (VO0_4.writes (Elt F) VO0_4.junk (kernelRun0 c i arg1 harg1 arg2 harg2 arg3 harg3 arg4 harg4 arg5 harg5 arg6 harg6 x0 x1 x2 x3).1)

/-! ## The pipeline's proof data -/

/-- The proof data on core c: the arrays as the region finds them; after the body at point t each input's
    buffer at its block and the output's at what the body's store leaves; the invariant the same at every
    point (the scratch at anything, the generator register untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 c (grid0.coords t) (st0_0 t) (hs0_0 t) (st0_1 t) (hs0_1 t) (st0_2 t) (hs0_2 t) (st0_3 t) (hs0_3 t) (st0_4 t) (hs0_4 t) scM0 (Memref.isWhole_whole _) (iblk m c 0 t) (iblk m c 1 t) (iblk m c 2 t) (iblk m c 3 t)
  Φ _ := Pipeline.ΦA spec0 c
  q _ := fullShare
  owed _ := 0

/-- The proof data's arrays are the region-entry contents (the definition projected, the fold over the host
    lines never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 c (grid0.coords t) (st0_0 t) (hs0_0 t) (st0_1 t) (hs0_1 t) (st0_2 t) (hs0_2 t) (st0_3 t) (hs0_3 t) (st0_4 t) (hs0_4 t) scM0 (Memref.isWhole_whole _) (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point: the inputs' memrefs hold their blocks, the invariant hands over the scratch at some
    contents and takes it back at some contents, and the output's buffer ends at its pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold out0_4
  iintro ⟨⟨HS0, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hg]
  · isplitl [HS0]
    · iexists (scM0.view.read (Elt F) es0); unfold owns; iexists es0; isplitr
      · ipureintro; rfl
      iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state
    has every array of the pipeline at what the proof data give and every other unscoped buffer as the reshape
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Around

end
-- ==== Proof.BodyValue.lean ====
/- The kernel body's arithmetic read at one entry of its 512 x 3072 output block: the first block product at an
   entry is the sum over the 1024 contraction positions of the products of the operands' entries; the second payload
   at an entry is (the loaded entry plus the bias row's entry) plus the 128-term block product's entry times one. -/
import proofs.«132580_j75041668595954_1_alg».proof.Proof.Gen.KernelIdeal.Skeleton
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Idealize.SL.Sem

/-- The extended real the word of the f32 constant 1.0 denotes. -/
abbrev one : EReal := Ideal.ofBits .f32 0x3F800000#32

/-! ## The two block products at an output index -/

/-- The left operand's row coordinate at an output index is the output's row coordinate. -/
theorem lhs_mm1_0 (i : S512x3200.Idx) (q : dot_S512x1024_S1024x3200_S512x3200_1_0_0_1_n_n.contr.Idx) :
    (dot_S512x1024_S1024x3200_S512x3200_1_0_0_1_n_n.lhsIdx i q 0).val = (i 0).val := by
  unfold DotDims.lhsIdx
  rw [dif_neg (show ¬(0 : Fin S512x1024.rank) ∈ dot_S512x1024_S1024x3200_S512x3200_1_0_0_1_n_n.lhsBatch by decide), dif_pos (show (0 : Fin S512x1024.rank) ∈ dot_S512x1024_S1024x3200_S512x3200_1_0_0_1_n_n.lhsNonContracting by decide)]
  rfl
/-- The left operand's column coordinate is the contraction position. -/
theorem lhs_mm1_1 (i : S512x3200.Idx) (q : dot_S512x1024_S1024x3200_S512x3200_1_0_0_1_n_n.contr.Idx) :
    (dot_S512x1024_S1024x3200_S512x3200_1_0_0_1_n_n.lhsIdx i q 1).val = (q ⟨0, by decide⟩).val :=
  dot_S512x1024_S1024x3200_S512x3200_1_0_0_1_n_n.lhsIdx_val_of_single rfl i q
/-- The right operand's row coordinate is the contraction position. -/
theorem rhs_mm1_0 (i : S512x3200.Idx) (q : dot_S512x1024_S1024x3200_S512x3200_1_0_0_1_n_n.contr.Idx) :
    (dot_S512x1024_S1024x3200_S512x3200_1_0_0_1_n_n.rhsIdx i q 0).val = (q ⟨0, by decide⟩).val :=
  dot_S512x1024_S1024x3200_S512x3200_1_0_0_1_n_n.rhsIdx_val_of_single rfl i q
/-- The right operand's column coordinate at an output index is the output's column coordinate. -/
theorem rhs_mm1_1 (i : S512x3200.Idx) (q : dot_S512x1024_S1024x3200_S512x3200_1_0_0_1_n_n.contr.Idx) :
    (dot_S512x1024_S1024x3200_S512x3200_1_0_0_1_n_n.rhsIdx i q 1).val = (i 1).val := by
  unfold DotDims.rhsIdx
  rw [dif_neg (show ¬(1 : Fin S1024x3200.rank) ∈ dot_S512x1024_S1024x3200_S512x3200_1_0_0_1_n_n.rhsBatch by decide), dif_pos (show (1 : Fin S1024x3200.rank) ∈ dot_S512x1024_S1024x3200_S512x3200_1_0_0_1_n_n.rhsNonContracting by decide)]
  rfl

/-- The block product into the zero accumulator, read at row `p` and column `q`: the sum over the 1024 contraction
    positions of the left operand's row `p` times the right operand's column `q`. -/
theorem mm1_apply (a : FVec Ideal S512x1024 .bf16) (b : FVec Ideal S1024x3200 .bf16) (p : Fin 512) (q : Fin 3200) :
    matmul (F := Ideal) dot_S512x1024_S1024x3200_S512x3200_1_0_0_1_n_n none a b (constant (F := Ideal) S512x3200 .f32 0x00000000#32) (ix2 p q)
      = ∑ c : Fin 1024, a (ix2 p c) * b (ix2 c q) := by
  simp only [matmul]
  rw [Ideal.matmul_constant_zero_apply, ← Equiv.sum_comp (contrEquiv1 dot_S512x1024_S1024x3200_S512x3200_1_0_0_1_n_n 1024 rfl rfl).symm]
  refine Finset.sum_congr rfl fun k _ => ?_
  have hk := contrEquiv1_symm_val dot_S512x1024_S1024x3200_S512x3200_1_0_0_1_n_n 1024 rfl rfl k
  have el : dot_S512x1024_S1024x3200_S512x3200_1_0_0_1_n_n.lhsIdx (ix2 p q) ((contrEquiv1 dot_S512x1024_S1024x3200_S512x3200_1_0_0_1_n_n 1024 rfl rfl).symm k) = ix2 p k := funext fun x => Fin.ext (by
    match x with
    | ⟨0, _⟩ => exact lhs_mm1_0 _ _
    | ⟨1, _⟩ => exact (lhs_mm1_1 _ _).trans hk)
  have er : dot_S512x1024_S1024x3200_S512x3200_1_0_0_1_n_n.rhsIdx (ix2 p q) ((contrEquiv1 dot_S512x1024_S1024x3200_S512x3200_1_0_0_1_n_n 1024 rfl rfl).symm k) = ix2 k q := funext fun x => Fin.ext (by
    match x with
    | ⟨0, _⟩ => exact (rhs_mm1_0 _ _).trans hk
    | ⟨1, _⟩ => exact rhs_mm1_1 _ _)
  rw [el, er]

/-- The left operand's row coordinate at an output index is the output's row coordinate. -/
theorem lhs_mm2_0 (i : S512x3072.Idx) (q : dot_S512x128_S128x3072_S512x3072_1_0_0_1_n_n.contr.Idx) :
    (dot_S512x128_S128x3072_S512x3072_1_0_0_1_n_n.lhsIdx i q 0).val = (i 0).val := by
  unfold DotDims.lhsIdx
  rw [dif_neg (show ¬(0 : Fin S512x128.rank) ∈ dot_S512x128_S128x3072_S512x3072_1_0_0_1_n_n.lhsBatch by decide), dif_pos (show (0 : Fin S512x128.rank) ∈ dot_S512x128_S128x3072_S512x3072_1_0_0_1_n_n.lhsNonContracting by decide)]
  rfl
/-- The left operand's column coordinate is the contraction position. -/
theorem lhs_mm2_1 (i : S512x3072.Idx) (q : dot_S512x128_S128x3072_S512x3072_1_0_0_1_n_n.contr.Idx) :
    (dot_S512x128_S128x3072_S512x3072_1_0_0_1_n_n.lhsIdx i q 1).val = (q ⟨0, by decide⟩).val :=
  dot_S512x128_S128x3072_S512x3072_1_0_0_1_n_n.lhsIdx_val_of_single rfl i q
/-- The right operand's row coordinate is the contraction position. -/
theorem rhs_mm2_0 (i : S512x3072.Idx) (q : dot_S512x128_S128x3072_S512x3072_1_0_0_1_n_n.contr.Idx) :
    (dot_S512x128_S128x3072_S512x3072_1_0_0_1_n_n.rhsIdx i q 0).val = (q ⟨0, by decide⟩).val :=
  dot_S512x128_S128x3072_S512x3072_1_0_0_1_n_n.rhsIdx_val_of_single rfl i q
/-- The right operand's column coordinate at an output index is the output's column coordinate. -/
theorem rhs_mm2_1 (i : S512x3072.Idx) (q : dot_S512x128_S128x3072_S512x3072_1_0_0_1_n_n.contr.Idx) :
    (dot_S512x128_S128x3072_S512x3072_1_0_0_1_n_n.rhsIdx i q 1).val = (i 1).val := by
  unfold DotDims.rhsIdx
  rw [dif_neg (show ¬(1 : Fin S128x3072.rank) ∈ dot_S512x128_S128x3072_S512x3072_1_0_0_1_n_n.rhsBatch by decide), dif_pos (show (1 : Fin S128x3072.rank) ∈ dot_S512x128_S128x3072_S512x3072_1_0_0_1_n_n.rhsNonContracting by decide)]
  rfl

/-- The block product into the zero accumulator, read at row `p` and column `q`: the sum over the 128 contraction
    positions of the left operand's row `p` times the right operand's column `q`. -/
theorem mm2_apply (a : FVec Ideal S512x128 .bf16) (b : FVec Ideal S128x3072 .bf16) (p : Fin 512) (q : Fin 3072) :
    matmul (F := Ideal) dot_S512x128_S128x3072_S512x3072_1_0_0_1_n_n none a b (constant (F := Ideal) S512x3072 .f32 0x00000000#32) (ix2 p q)
      = ∑ c : Fin 128, a (ix2 p c) * b (ix2 c q) := by
  simp only [matmul]
  rw [Ideal.matmul_constant_zero_apply, ← Equiv.sum_comp (contrEquiv1 dot_S512x128_S128x3072_S512x3072_1_0_0_1_n_n 128 rfl rfl).symm]
  refine Finset.sum_congr rfl fun k _ => ?_
  have hk := contrEquiv1_symm_val dot_S512x128_S128x3072_S512x3072_1_0_0_1_n_n 128 rfl rfl k
  have el : dot_S512x128_S128x3072_S512x3072_1_0_0_1_n_n.lhsIdx (ix2 p q) ((contrEquiv1 dot_S512x128_S128x3072_S512x3072_1_0_0_1_n_n 128 rfl rfl).symm k) = ix2 p k := funext fun x => Fin.ext (by
    match x with
    | ⟨0, _⟩ => exact lhs_mm2_0 _ _
    | ⟨1, _⟩ => exact (lhs_mm2_1 _ _).trans hk)
  have er : dot_S512x128_S128x3072_S512x3072_1_0_0_1_n_n.rhsIdx (ix2 p q) ((contrEquiv1 dot_S512x128_S128x3072_S512x3072_1_0_0_1_n_n 128 rfl rfl).symm k) = ix2 k q := funext fun x => Fin.ext (by
    match x with
    | ⟨0, _⟩ => exact (rhs_mm2_0 _ _).trans hk
    | ⟨1, _⟩ => exact rhs_mm2_1 _ _)
  rw [el, er]

/-! ## The payloads at an entry -/

/-- The first payload at row `p`, column `q`: the sum over the 1024 contraction positions. -/
theorem pay1_apply (x0 : Vec Ideal S512x1024 .f32) (x1 : Vec Ideal S1024x3200 .bf16) (p : Fin 512) (q : Fin 3200) :
    k0_pay1 (F := Ideal) x0 x1 (ix2 p q) = ∑ c : Fin 1024, x0 (ix2 p c) * x1 (ix2 c q) := by
  unfold k0_pay1
  rw [shapeCast_self, shapeCast_self, shapeCast_self]
  exact mm1_apply _ _ p q

/-- The second payload at row `p`, column `q`: (the loaded entry plus the bias row's entry at column `q`) plus the
    128-term sum times one. -/
theorem pay2_apply (v9 : Vec Ideal S512x3072 .f32) (v10 : Vec Ideal S512x128 .f32) (x2 : Vec Ideal S128x3072 .bf16) (x3 : Vec Ideal S1x3072 .f32) (p : Fin 512) (q : Fin 3072) :
    k0_pay2 (F := Ideal) v9 v10 x2 x3 (ix2 p q) = (v9 (ix2 p q) + x3 (ix2 (0 : Fin 1) q)) + (∑ j : Fin 128, v10 (ix2 p j) * x2 (ix2 j q)) * one := by
  unfold k0_pay2
  rw [shapeCast_self, shapeCast_self]
  rw [addf_apply, addf_apply, mulf_apply, broadcast_apply]
  rw [mm2_apply]
  rw [broadcastTo_apply x3 broadcasts_S1x3072_S512x3072 (ix2 p q) (ix2 (0 : Fin 1) q) (fun a => match a with
    | ⟨0, _⟩ => by show (0 : Nat) = if (1 : Nat) = 1 then 0 else _; rw [if_pos rfl]
    | ⟨1, _⟩ => by show q.val = if (3072 : Nat) = 1 then 0 else q.val; rw [if_neg (by decide)])]
  rfl

/-! ## The two boxes of the 512 x 3200 scratch block the second payload reads -/

/-- The 512 x 3072 box at offset [0, 0] of a 512 x 3200 block, read at row `p`, column `q`: the block's entry at
    row `p`, column `q`. -/
theorem ld_main_apply (h : Vec Ideal S512x3200 .f32) (p : Fin 512) (q : Fin 3072) :
    View.ld (Val := Elt Ideal) h (Rect.unit (s := S512x3200) ![0, 0] S512x3072.size inb_S512x3200_S512x3072_0_0) (ix2 p q)
      = h (ix2 p ⟨q.val, Nat.lt_of_lt_of_le q.isLt (by decide)⟩) :=
  congrArg h (funext fun a => Fin.ext (by
    match a with
    | ⟨0, _⟩ => show 0 + 1 * p.val = p.val; omega
    | ⟨1, _⟩ => show 0 + 1 * q.val = q.val; omega))

/-- The 512 x 128 box at offset [0, 3072] of a 512 x 3200 block, read at row `p`, column `j`: the block's entry at
    row `p`, column `3072 + j`. -/
theorem ld_lora_apply (h : Vec Ideal S512x3200 .f32) (p : Fin 512) (j : Fin 128) :
    View.ld (Val := Elt Ideal) h (Rect.unit (s := S512x3200) ![0, 3072] S512x128.size inb_S512x3200_S512x128_0_3072) (ix2 p j)
      = h (ix2 p ⟨3072 + j.val, by have := j.isLt; omega⟩) :=
  congrArg h (funext fun a => Fin.ext (by
    match a with
    | ⟨0, _⟩ => show 0 + 1 * p.val = p.val; omega
    | ⟨1, _⟩ => show 3072 + 1 * j.val = 3072 + j.val; omega))

/-! ## The block's entry from the kernel's inputs -/

/-- The second payload over the two boxes of the first payload's block, at row `p`, column `q`: (the 1024-term product
    at column `q` plus the bias row's entry) plus the sum over the 128 columns from 3072 on of the 1024-term product there
    times the second factor's entry, times one. -/
theorem block_entry (x0 : Vec Ideal S512x1024 .f32) (x1 : Vec Ideal S1024x3200 .bf16) (x2 : Vec Ideal S128x3072 .bf16) (x3 : Vec Ideal S1x3072 .f32) (p : Fin 512) (q : Fin 3072) :
    k0_pay2 (F := Ideal) (View.ld (Val := Elt Ideal) (k0_pay1 (F := Ideal) x0 x1) (Rect.unit (s := S512x3200) ![0, 0] S512x3072.size inb_S512x3200_S512x3072_0_0)) (View.ld (Val := Elt Ideal) (k0_pay1 (F := Ideal) x0 x1) (Rect.unit (s := S512x3200) ![0, 3072] S512x128.size inb_S512x3200_S512x128_0_3072)) x2 x3 (ix2 p q)
      = ((∑ c : Fin 1024, x0 (ix2 p c) * x1 (ix2 c ⟨q.val, by have := q.isLt; omega⟩)) + x3 (ix2 (0 : Fin 1) q)) + (∑ j : Fin 128, (∑ c : Fin 1024, x0 (ix2 p c) * x1 (ix2 c ⟨3072 + j.val, by have := j.isLt; omega⟩)) * x2 (ix2 j q)) * one := by
  have hs : (∑ j : Fin 128, View.ld (Val := Elt Ideal) (k0_pay1 (F := Ideal) x0 x1) (Rect.unit (s := S512x3200) ![0, 3072] S512x128.size inb_S512x3200_S512x128_0_3072) (ix2 p j) * x2 (ix2 j q))
      = ∑ j : Fin 128, (∑ c : Fin 1024, x0 (ix2 p c) * x1 (ix2 c ⟨3072 + j.val, by have := j.isLt; omega⟩)) * x2 (ix2 j q) :=
    Finset.sum_congr rfl fun j _ => by rw [ld_lora_apply, pay1_apply]
  refine (pay2_apply _ _ x2 x3 p q).trans ?_
  rw [ld_main_apply, pay1_apply, hs]

end Cert.KernelIdeal.BodyValue

end
-- ==== Proof.Spec.lean ====
/-
  What the fused projection computes, as one function of the nine argument arrays, index by index over the
  extended reals. Row (g, n) of the activations is projected by the dense weight and shifted by the bias,
  and on top of that goes the low-rank correction of the column's own third: columns 0..1023 take the
  pair (a_q, b_q), columns 1024..2047 the pair (a_k, b_k), columns 2048..3071 the pair (a_v, b_v). The
  correction is scaled by the factor both programs spell as the literal 1.0; it is kept as a parameter so
  that its bit pattern is never evaluated.
-/
import Idealize.ShloMosaic.PureOps.Ideal
import Idealize.ShloMosaic.Lib.ValueIdx

noncomputable section

open scoped BigOperators

namespace Cert.Spec

open Idealize.ShloMosaic Idealize.ShloMosaic.ValueIdx

/-- The dense projection: row (g, n) of x against row o of the weight, summed over the 1024 features. -/
def dense (x : (⟨3, ![8, 2048, 1024]⟩ : Shape).Idx → EReal) (w : (⟨2, ![3072, 1024]⟩ : Shape).Idx → EReal)
    (g : Fin 8) (n : Fin 2048) (o : Fin 3072) : EReal :=
  ∑ c : Fin 1024, x (ix3 g n c) * w (ix2 o c)

/-- The rank-16 path x · aᵀ · bᵀ at row (g, n) and column d of its third: first down to the 16 ranks,
    then up to the column. -/
def lowRank (x : (⟨3, ![8, 2048, 1024]⟩ : Shape).Idx → EReal) (a : (⟨2, ![16, 1024]⟩ : Shape).Idx → EReal)
    (b : (⟨2, ![1024, 16]⟩ : Shape).Idx → EReal) (g : Fin 8) (n : Fin 2048) (d : Fin 1024) : EReal :=
  ∑ r : Fin 16, (∑ c : Fin 1024, x (ix3 g n c) * a (ix2 r c)) * b (ix2 d r)

/-- One entry of the result: (dense + bias) + (the column's own low-rank path) · one. -/
def entry (one : EReal) (x : (⟨3, ![8, 2048, 1024]⟩ : Shape).Idx → EReal) (w : (⟨2, ![3072, 1024]⟩ : Shape).Idx → EReal)
    (bias : (⟨1, ![3072]⟩ : Shape).Idx → EReal)
    (aq : (⟨2, ![16, 1024]⟩ : Shape).Idx → EReal) (bq : (⟨2, ![1024, 16]⟩ : Shape).Idx → EReal)
    (ak : (⟨2, ![16, 1024]⟩ : Shape).Idx → EReal) (bk : (⟨2, ![1024, 16]⟩ : Shape).Idx → EReal)
    (av : (⟨2, ![16, 1024]⟩ : Shape).Idx → EReal) (bv : (⟨2, ![1024, 16]⟩ : Shape).Idx → EReal)
    (g : Fin 8) (n : Fin 2048) (o : Fin 3072) : EReal :=
  (dense x w g n o + bias (ix1 o))
    + (if h0 : o.val < 1024 then lowRank x aq bq g n ⟨o.val, h0⟩
       else if h1 : o.val < 2048 then lowRank x ak bk g n ⟨o.val - 1024, by omega⟩
       else lowRank x av bv g n ⟨o.val - 2048, by have := o.isLt; omega⟩) * one

/-- The whole result array. -/
def loraQkv (one : EReal) (x : (⟨3, ![8, 2048, 1024]⟩ : Shape).Idx → EReal) (w : (⟨2, ![3072, 1024]⟩ : Shape).Idx → EReal)
    (bias : (⟨1, ![3072]⟩ : Shape).Idx → EReal)
    (aq : (⟨2, ![16, 1024]⟩ : Shape).Idx → EReal) (bq : (⟨2, ![1024, 16]⟩ : Shape).Idx → EReal)
    (ak : (⟨2, ![16, 1024]⟩ : Shape).Idx → EReal) (bk : (⟨2, ![1024, 16]⟩ : Shape).Idx → EReal)
    (av : (⟨2, ![16, 1024]⟩ : Shape).Idx → EReal) (bv : (⟨2, ![1024, 16]⟩ : Shape).Idx → EReal) :
    (⟨3, ![8, 2048, 3072]⟩ : Shape).Idx → EReal :=
  fun i => entry one x w bias aq bq ak bk av bv (i 0) (i 1) (i 2)

theorem loraQkv_apply (one : EReal) (x : (⟨3, ![8, 2048, 1024]⟩ : Shape).Idx → EReal) (w : (⟨2, ![3072, 1024]⟩ : Shape).Idx → EReal)
    (bias : (⟨1, ![3072]⟩ : Shape).Idx → EReal)
    (aq : (⟨2, ![16, 1024]⟩ : Shape).Idx → EReal) (bq : (⟨2, ![1024, 16]⟩ : Shape).Idx → EReal)
    (ak : (⟨2, ![16, 1024]⟩ : Shape).Idx → EReal) (bk : (⟨2, ![1024, 16]⟩ : Shape).Idx → EReal)
    (av : (⟨2, ![16, 1024]⟩ : Shape).Idx → EReal) (bv : (⟨2, ![1024, 16]⟩ : Shape).Idx → EReal)
    (g : Fin 8) (n : Fin 2048) (o : Fin 3072) :
    loraQkv one x w bias aq bq ak bk av bv (ix3 g n o) = entry one x w bias aq bq ak bk av bv g n o := rfl

end Cert.Spec

end
-- ==== Proof.Operands.lean ====
/-
  The operands the host builds before the kernel region, read at an index, and the collapse of the padded
  block-diagonal rank sum.

  W1[1024, 3200] = [ wᵀ | Aᵀ ], where A[128, 1024] stacks a_q, a_k, a_v (16 rows each) over 80 zero rows;
  UP[128, 3072] is block diagonal: row 16 s + r holds b_s[·, r] in the columns of third s and zero elsewhere,
  rows 48 … 127 are zero. A sum over the 128 padded ranks against a column of UP keeps only the sixteen ranks
  of the column's own third, every other term being a product with zero.
-/
import proofs.«132580_j75041668595954_1_alg».proof.KernelIdeal
import proofs.«132580_j75041668595954_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Mathlib.Algebra.BigOperators.Group.Finset.Basic
import Mathlib.Algebra.BigOperators.Fin

noncomputable section

open scoped BigOperators

namespace Cert.KernelIdeal.Operands

open Idealize.ShloMosaic Idealize.ShloMosaic.ValueIdx
open Cert.KernelIdeal

/-! ## Layout operations at an index, at the shapes of this program -/

section Layout
variable {α : Type}

/-- Three blocks of sixteen rows stacked: row j is row j, j − 16 or j − 32 of the block it falls in. -/
theorem catRows_apply {m : Nat} (x0 x1 x2 : (⟨2, ![16, m]⟩ : Shape).Idx → α)
    (h : Shape.Concatenates [(⟨2, ![16, m]⟩ : Shape), ⟨2, ![16, m]⟩, ⟨2, ![16, m]⟩] ⟨2, ![48, m]⟩ 0)
    (j : Fin 48) (c : Fin m) :
    concatenate ⟨2, ![48, m]⟩ 0 [⟨⟨2, ![16, m]⟩, x0⟩, ⟨⟨2, ![16, m]⟩, x1⟩, ⟨⟨2, ![16, m]⟩, x2⟩] h (ix2 j c)
      = if h0 : j.val < 16 then x0 (ix2 ⟨j.val, h0⟩ c)
        else if h1 : j.val < 32 then x1 (ix2 ⟨j.val - 16, by omega⟩ c)
        else x2 (ix2 ⟨j.val - 32, by omega⟩ c) := by
  have hj := j.isLt
  by_cases h0 : j.val < 16
  · rw [dif_pos h0]
    exact concatenate_apply_piece 0 [⟨⟨2, ![16, m]⟩, x0⟩, ⟨⟨2, ![16, m]⟩, x1⟩, ⟨⟨2, ![16, m]⟩, x2⟩] h (ix2 j c) 0 (by simp)
      ⟨2, ![16, m]⟩ x0 rfl rfl 0 (by simp) (ix2 (⟨j.val, h0⟩ : Fin 16) c)
      (fun b => match b with | ⟨0, _⟩ => fun hb => absurd rfl hb | ⟨1, _⟩ => fun _ => rfl)
      (by show 0 + j.val = j.val; omega)
  · rw [dif_neg h0]
    by_cases h1 : j.val < 32
    · rw [dif_pos h1]
      exact concatenate_apply_piece 0 [⟨⟨2, ![16, m]⟩, x0⟩, ⟨⟨2, ![16, m]⟩, x1⟩, ⟨⟨2, ![16, m]⟩, x2⟩] h (ix2 j c) 1 (by simp)
        ⟨2, ![16, m]⟩ x1 rfl rfl 16 (by simp) (ix2 (⟨j.val - 16, by omega⟩ : Fin 16) c)
        (fun b => match b with | ⟨0, _⟩ => fun hb => absurd rfl hb | ⟨1, _⟩ => fun _ => rfl)
        (by show 16 + (j.val - 16) = j.val; omega)
    · rw [dif_neg h1]
      exact concatenate_apply_piece 0 [⟨⟨2, ![16, m]⟩, x0⟩, ⟨⟨2, ![16, m]⟩, x1⟩, ⟨⟨2, ![16, m]⟩, x2⟩] h (ix2 j c) 2 (by simp)
        ⟨2, ![16, m]⟩ x2 rfl rfl 32 (by simp) (ix2 (⟨j.val - 32, by omega⟩ : Fin 16) c)
        (fun b => match b with | ⟨0, _⟩ => fun hb => absurd rfl hb | ⟨1, _⟩ => fun _ => rfl)
        (by show 32 + (j.val - 32) = j.val; omega)

/-- Three blocks of 1024 columns side by side: column o is column o, o − 1024 or o − 2048 of its block. -/
theorem catCols_apply (x0 x1 x2 : (⟨2, ![16, 1024]⟩ : Shape).Idx → α)
    (h : Shape.Concatenates [(⟨2, ![16, 1024]⟩ : Shape), ⟨2, ![16, 1024]⟩, ⟨2, ![16, 1024]⟩] ⟨2, ![16, 3072]⟩ 1)
    (r : Fin 16) (o : Fin 3072) :
    concatenate ⟨2, ![16, 3072]⟩ 1 [⟨⟨2, ![16, 1024]⟩, x0⟩, ⟨⟨2, ![16, 1024]⟩, x1⟩, ⟨⟨2, ![16, 1024]⟩, x2⟩] h (ix2 r o)
      = if h0 : o.val < 1024 then x0 (ix2 r ⟨o.val, h0⟩)
        else if h1 : o.val < 2048 then x1 (ix2 r ⟨o.val - 1024, by omega⟩)
        else x2 (ix2 r ⟨o.val - 2048, by omega⟩) := by
  have ho := o.isLt
  by_cases h0 : o.val < 1024
  · rw [dif_pos h0]
    exact concatenate_apply_piece 1 [⟨⟨2, ![16, 1024]⟩, x0⟩, ⟨⟨2, ![16, 1024]⟩, x1⟩, ⟨⟨2, ![16, 1024]⟩, x2⟩] h (ix2 r o) 0 (by simp)
      ⟨2, ![16, 1024]⟩ x0 rfl rfl 0 (by simp) (ix2 r (⟨o.val, h0⟩ : Fin 1024))
      (fun b => match b with | ⟨0, _⟩ => fun _ => rfl | ⟨1, _⟩ => fun hb => absurd rfl hb)
      (by show 0 + o.val = o.val; omega)
  · rw [dif_neg h0]
    by_cases h1 : o.val < 2048
    · rw [dif_pos h1]
      exact concatenate_apply_piece 1 [⟨⟨2, ![16, 1024]⟩, x0⟩, ⟨⟨2, ![16, 1024]⟩, x1⟩, ⟨⟨2, ![16, 1024]⟩, x2⟩] h (ix2 r o) 1 (by simp)
        ⟨2, ![16, 1024]⟩ x1 rfl rfl 1024 (by simp) (ix2 r (⟨o.val - 1024, by omega⟩ : Fin 1024))
        (fun b => match b with | ⟨0, _⟩ => fun _ => rfl | ⟨1, _⟩ => fun hb => absurd rfl hb)
        (by show 1024 + (o.val - 1024) = o.val; omega)
    · rw [dif_neg h1]
      exact concatenate_apply_piece 1 [⟨⟨2, ![16, 1024]⟩, x0⟩, ⟨⟨2, ![16, 1024]⟩, x1⟩, ⟨⟨2, ![16, 1024]⟩, x2⟩] h (ix2 r o) 2 (by simp)
        ⟨2, ![16, 1024]⟩ x2 rfl rfl 2048 (by simp) (ix2 r (⟨o.val - 2048, by omega⟩ : Fin 1024))
        (fun b => match b with | ⟨0, _⟩ => fun _ => rfl | ⟨1, _⟩ => fun hb => absurd rfl hb)
        (by show 2048 + (o.val - 2048) = o.val; omega)

/-- Forty-eight rows padded below to 128: the operand in the first forty-eight rows, the padding value after. -/
theorem padRows_apply {m : Nat} (x : (⟨2, ![48, m]⟩ : Shape).Idx → α) {u : Shape} (v : u.Idx → α)
    (h : (⟨2, ![48, m]⟩ : Shape).Pads (![0, 0] : Fin 2 → Nat) ![80, 0] ![0, 0] ⟨2, ![128, m]⟩) (hu : 0 < u.numel)
    (j : Fin 128) (c : Fin m) :
    pad ⟨2, ![128, m]⟩ ![0, 0] ![80, 0] ![0, 0] x v h hu (ix2 j c)
      = if hj : j.val < 48 then x (ix2 ⟨j.val, hj⟩ c) else v (Shape.Idx.first hu) := by
  by_cases hj : j.val < 48
  · rw [dif_pos hj]
    exact pad_apply_of_inside _ _ _ x v h hu _ (ix2 (⟨j.val, hj⟩ : Fin 48) c) (by
      intro a
      match a with
      | ⟨0, _⟩ => show j.val = 0 + j.val * (0 + 1); omega
      | ⟨1, _⟩ => show c.val = 0 + c.val * (0 + 1); omega)
  · rw [dif_neg hj]
    exact pad_apply_of_not_inside _ _ _ x v h hu _ (0 : Fin 2) (by
      intro hin
      have e : (j.val - 0) / (0 + 1) < 48 := hin.2.2
      simp at e
      exact hj e)

end Layout

variable [Facts]
open Facts₀ Facts

/-! ## The two operands as the host spells them -/

/-- W1 = [ wᵀ | Aᵀ ]: the dense weight transposed, beside the three down-projections stacked, padded to 128 rows
    and transposed. -/
def w1 (w : FVec Ideal S3072x1024 .f32) (aq ak av : FVec Ideal S16x1024 .f32) : FVec Ideal S1024x3200 .bf16 :=
  truncf .bf16 (concatenate S1024x3200 1 [⟨S1024x3072, transpose S1024x3072 [1, 0] w transposes_S3072x1024_S1024x3072_1_0⟩, ⟨S1024x128, transpose S1024x128 [1, 0] (pad S128x1024 ![0, 0] ![80, 0] ![0, 0] (concatenate S48x1024 0 [⟨S16x1024, aq⟩, ⟨S16x1024, ak⟩, ⟨S16x1024, av⟩] concatenates_S16x1024_S16x1024_S16x1024_S48x1024_d0) (sitofp .f32 (constantI S_ 32 0#32)) pads_S48x1024_S128x1024_0800_000 h_S_) transposes_S128x1024_S1024x128_1_0⟩] concatenates_S1024x3072_S1024x128_S1024x3200_d1) bitsLt_bf16_f32

/-- UP: the three up-projections transposed on the block diagonal, zeros elsewhere, padded to 128 rows. -/
def upBd (bq bk bv : FVec Ideal S1024x16 .f32) : FVec Ideal S128x3072 .bf16 :=
  truncf .bf16 (pad S128x3072 ![0, 0] ![80, 0] ![0, 0]
    (concatenate S48x3072 0
      [⟨S16x3072, concatenate S16x3072 1 [⟨S16x1024, transpose S16x1024 [1, 0] bq transposes_S1024x16_S16x1024_1_0⟩, ⟨S16x1024, broadcastInDim S16x1024 ![] bcast_S_S16x1024 (constant S_ .f32 0x00000000#32)⟩, ⟨S16x1024, broadcastInDim S16x1024 ![] bcast_S_S16x1024 (constant S_ .f32 0x00000000#32)⟩] concatenates_S16x1024_S16x1024_S16x1024_S16x3072_d1⟩,
       ⟨S16x3072, concatenate S16x3072 1 [⟨S16x1024, broadcastInDim S16x1024 ![] bcast_S_S16x1024 (constant S_ .f32 0x00000000#32)⟩, ⟨S16x1024, transpose S16x1024 [1, 0] bk transposes_S1024x16_S16x1024_1_0⟩, ⟨S16x1024, broadcastInDim S16x1024 ![] bcast_S_S16x1024 (constant S_ .f32 0x00000000#32)⟩] concatenates_S16x1024_S16x1024_S16x1024_S16x3072_d1⟩,
       ⟨S16x3072, concatenate S16x3072 1 [⟨S16x1024, broadcastInDim S16x1024 ![] bcast_S_S16x1024 (constant S_ .f32 0x00000000#32)⟩, ⟨S16x1024, broadcastInDim S16x1024 ![] bcast_S_S16x1024 (constant S_ .f32 0x00000000#32)⟩, ⟨S16x1024, transpose S16x1024 [1, 0] bv transposes_S1024x16_S16x1024_1_0⟩] concatenates_S16x1024_S16x1024_S16x1024_S16x3072_d1⟩]
      concatenates_S16x3072_S16x3072_S16x3072_S48x3072_d0)
    (sitofp .f32 (constantI S_ 32 0#32)) pads_S48x3072_S128x3072_0800_000 h_S_) bitsLt_bf16_f32

/-! ## Their entries -/

/-- The padding value, the integer zero converted, is zero. -/
theorem padValue_eq : (sitofp .f32 (constantI S_ 32 0#32) : FVec Ideal S_ .f32) (Shape.Idx.first h_S_) = 0 :=
  sitofp_zero

/-- The block of zeros reads zero everywhere. -/
theorem zeros_apply (i : S16x1024.Idx) :
    (broadcastInDim S16x1024 ![] bcast_S_S16x1024 (constant S_ .f32 0x00000000#32) : FVec Ideal S16x1024 .f32) i = 0 := by
  rw [broadcastInDim_scalar_apply, constant_apply, Ideal.ofBits_zero_f32]

/-- Column o < 3072 of W1 is row o of the dense weight. -/
theorem w1_dense (w : FVec Ideal S3072x1024 .f32) (aq ak av : FVec Ideal S16x1024 .f32) (c : Fin 1024) (o : Fin 3072) :
    w1 w aq ak av (ix2 c ⟨o.val, by omega⟩) = w (ix2 o c) := by
  unfold w1
  rw [truncf_apply]
  refine (concatenate_pair_apply_left (s₁ := S1024x3072) 1 _ _ _ (ix2 c (⟨o.val, by omega⟩ : Fin 3200)) rfl (ix2 c o)
    (fun b => match b with | ⟨0, _⟩ => rfl | ⟨1, _⟩ => rfl)).trans ?_
  exact transpose_ix2_apply w _ c o

/-- Column 3072 + j of W1 is row j of the stacked down-projections: a_q, a_k, a_v in turn, zero from row 48 on. -/
theorem w1_rank (w : FVec Ideal S3072x1024 .f32) (aq ak av : FVec Ideal S16x1024 .f32) (c : Fin 1024) (j : Fin 128) :
    w1 w aq ak av (ix2 c ⟨3072 + j.val, by omega⟩)
      = (if h0 : j.val < 16 then aq (ix2 ⟨j.val, h0⟩ c)
         else if h1 : j.val < 32 then ak (ix2 ⟨j.val - 16, by omega⟩ c)
         else if h2 : j.val < 48 then av (ix2 ⟨j.val - 32, by omega⟩ c) else 0) := by
  unfold w1
  rw [truncf_apply]
  refine (concatenate_pair_apply_right (s₁ := S1024x3072) (s₂ := S1024x128) 1 _ _ _
    (ix2 c (⟨3072 + j.val, by omega⟩ : Fin 3200)) rfl rfl (ix2 c j)
    (fun b => match b with | ⟨0, _⟩ => fun _ => rfl | ⟨1, _⟩ => fun hb => absurd rfl hb)
    (by show j.val + 3072 = 3072 + j.val; omega)).trans ?_
  rw [transpose_ix2_apply, padRows_apply, padValue_eq]
  by_cases hj : j.val < 48
  · rw [dif_pos hj, catRows_apply]
    dsimp only
    split_ifs <;> first | rfl | omega
  · rw [dif_neg hj]
    split_ifs <;> first | rfl | omega

/-- Entry (j, o) of UP: b_s[d, r] where row j = 16 s + r lies in the third s of column o = 1024 s + d, zero elsewhere. -/
theorem upBd_apply (bq bk bv : FVec Ideal S1024x16 .f32) (j : Fin 128) (o : Fin 3072) :
    upBd bq bk bv (ix2 j o)
      = (if hq : j.val < 16 ∧ o.val < 1024 then bq (ix2 ⟨o.val, hq.2⟩ ⟨j.val, hq.1⟩)
         else if hk : (16 ≤ j.val ∧ j.val < 32) ∧ (1024 ≤ o.val ∧ o.val < 2048) then
           bk (ix2 ⟨o.val - 1024, by omega⟩ ⟨j.val - 16, by omega⟩)
         else if hv : (32 ≤ j.val ∧ j.val < 48) ∧ 2048 ≤ o.val then
           bv (ix2 ⟨o.val - 2048, by omega⟩ ⟨j.val - 32, by omega⟩)
         else 0) := by
  have ho := o.isLt
  unfold upBd
  rw [truncf_apply, padRows_apply, padValue_eq]
  by_cases hj : j.val < 48
  · rw [dif_pos hj, catRows_apply]
    dsimp only
    simp only [catCols_apply]
    split_ifs <;> first | exact zeros_apply _ | exact transpose_ix2_apply _ _ _ _ | rfl | omega
  · rw [dif_neg hj]
    split_ifs <;> first | rfl | omega

/-! ## The rank sum -/

/-- A sum over 128 terms that vanish outside sixteen consecutive ones is the sum of those sixteen. -/
theorem sum_block (lo : Nat) (hlo : lo + 16 ≤ 128) (g : Fin 128 → EReal) (F : Fin 16 → EReal)
    (hin : ∀ (j : Fin 128) (hl : lo ≤ j.val) (hh : j.val < lo + 16), g j = F ⟨j.val - lo, by omega⟩)
    (hout : ∀ j : Fin 128, (j.val < lo ∨ lo + 16 ≤ j.val) → g j = 0) :
    ∑ j, g j = ∑ r, F r := by
  symm
  refine Fintype.sum_of_injective (fun r : Fin 16 => (⟨lo + r.val, by omega⟩ : Fin 128)) ?_ F g ?_ ?_
  · intro a b hab
    have e : lo + a.val = lo + b.val := congrArg Fin.val hab
    exact Fin.ext (by omega)
  · intro i hi
    apply hout
    by_contra hc
    apply hi
    refine ⟨⟨i.val - lo, by omega⟩, Fin.ext ?_⟩
    show lo + (i.val - lo) = i.val
    omega
  · intro r
    rw [hin ⟨lo + r.val, by omega⟩ (Nat.le_add_right _ _) (by show lo + r.val < lo + 16; omega)]
    exact congrArg F (Fin.ext (by show r.val = lo + r.val - lo; omega))

/-- The padded rank sum against a column of UP keeps the sixteen ranks of the column's own third: every other
    term is a product with zero. -/
theorem rank_collapse (u : Fin 128 → EReal) (bq bk bv : FVec Ideal S1024x16 .f32) (aqx akx avx : Fin 16 → EReal)
    (hu : ∀ j : Fin 128, u j = (if h0 : j.val < 16 then aqx ⟨j.val, h0⟩
      else if h1 : j.val < 32 then akx ⟨j.val - 16, by omega⟩
      else if h2 : j.val < 48 then avx ⟨j.val - 32, by omega⟩ else 0))
    (o : Fin 3072) :
    ∑ j : Fin 128, u j * upBd bq bk bv (ix2 j o)
      = (if h0 : o.val < 1024 then ∑ r : Fin 16, aqx r * bq (ix2 ⟨o.val, h0⟩ r)
         else if h1 : o.val < 2048 then ∑ r : Fin 16, akx r * bk (ix2 ⟨o.val - 1024, by omega⟩ r)
         else ∑ r : Fin 16, avx r * bv (ix2 ⟨o.val - 2048, by omega⟩ r)) := by
  have ho := o.isLt
  by_cases h0 : o.val < 1024
  · rw [dif_pos h0]
    refine sum_block 0 (by omega) (fun j => u j * upBd bq bk bv (ix2 j o))
      (fun r => aqx r * bq (ix2 ⟨o.val, h0⟩ r)) (fun j hl hh => ?_) (fun j hj => ?_)
    · rw [hu, upBd_apply]
      split_ifs <;> first | rfl | omega
    · rw [upBd_apply]
      split_ifs <;> first | omega | exact mul_zero _
  · rw [dif_neg h0]
    by_cases h1 : o.val < 2048
    · rw [dif_pos h1]
      refine sum_block 16 (by omega) (fun j => u j * upBd bq bk bv (ix2 j o))
        (fun r => akx r * bk (ix2 ⟨o.val - 1024, by omega⟩ r)) (fun j hl hh => ?_) (fun j hj => ?_)
      · rw [hu, upBd_apply]
        split_ifs <;> first | rfl | omega
      · rw [upBd_apply]
        split_ifs <;> first | omega | exact mul_zero _
    · rw [dif_neg h1]
      refine sum_block 32 (by omega) (fun j => u j * upBd bq bk bv (ix2 j o))
        (fun r => avx r * bv (ix2 ⟨o.val - 2048, by omega⟩ r)) (fun j hl hh => ?_) (fun j hj => ?_)
      · rw [hu, upBd_apply]
        split_ifs <;> first | rfl | omega
      · rw [upBd_apply]
        split_ifs <;> first | omega | exact mul_zero _

/-! ## The three plain reshapes -/

/-- The activations flattened to 16384 rows: row r is row r mod 2048 of batch r / 2048. -/
theorem xFlat_apply (x : FVec Ideal S8x2048x1024 .f32) (r : Fin 16384) (c : Fin 1024) :
    shapeCast S16384x1024 x shapeCasts_S8x2048x1024_S16384x1024 (ix2 r c)
      = x (ix3 ⟨r.val / 2048, by omega⟩ ⟨r.val % 2048, by omega⟩ c) := by
  refine shapeCast_apply x _ _ _ ?_
  rw [Shape.rowMajor_val_two, Shape.rowMajor_val_three]
  show ((r.val / 2048) * 2048 + r.val % 2048) * 1024 + c.val = r.val * 1024 + c.val
  omega

/-- The bias as a one-row matrix: its only row is the bias. -/
theorem biasRow_apply (b : FVec Ideal S3072 .f32) (o : Fin 3072) :
    shapeCast S1x3072 b shapeCasts_S3072_S1x3072 (ix2 (0 : Fin 1) o) = b (ix1 o) := by
  refine shapeCast_apply b _ _ _ ?_
  rw [Shape.rowMajor_val_one, Shape.rowMajor_val_two]
  show o.val = 0 * 3072 + o.val
  omega

/-- The 16384 result rows regrouped by batch: row n of batch g is flat row 2048 g + n. -/
theorem unflatten_apply (y : FVec Ideal S16384x3072 .f32) (g : Fin 8) (n : Fin 2048) (o : Fin 3072) :
    shapeCast S8x2048x3072 y shapeCasts_S16384x3072_S8x2048x3072 (ix3 g n o)
      = y (ix2 ⟨2048 * g.val + n.val, by omega⟩ o) := by
  refine shapeCast_apply y _ _ _ ?_
  rw [Shape.rowMajor_val_two, Shape.rowMajor_val_three]
  show (2048 * g.val + n.val) * 3072 + o.val = (g.val * 2048 + n.val) * 3072 + o.val
  omega

/-! ## The kernel's entry is the specification's -/

/-- One entry as the kernel computes it — the row of x against column o of W1, plus the bias, plus the row of x
    against the 128 rank columns of W1 carried up through column o of UP and scaled — is the specification's entry:
    the dense columns of W1 are the weight's rows, and the padded block-diagonal rank sum keeps only the sixteen
    ranks of the column's own third. -/
theorem entry_eq (one : EReal) (x : FVec Ideal S8x2048x1024 .f32) (w : FVec Ideal S3072x1024 .f32)
    (bias : FVec Ideal S3072 .f32) (aq : FVec Ideal S16x1024 .f32) (bq : FVec Ideal S1024x16 .f32)
    (ak : FVec Ideal S16x1024 .f32) (bk : FVec Ideal S1024x16 .f32) (av : FVec Ideal S16x1024 .f32)
    (bv : FVec Ideal S1024x16 .f32) (g : Fin 8) (n : Fin 2048) (o : Fin 3072) :
    ((∑ c : Fin 1024, x (ix3 g n c) * w1 w aq ak av (ix2 c ⟨o.val, by have := o.isLt; omega⟩)) + bias (ix1 o))
      + (∑ j : Fin 128, (∑ c : Fin 1024, x (ix3 g n c) * w1 w aq ak av (ix2 c ⟨3072 + j.val, by have := j.isLt; omega⟩))
          * upBd bq bk bv (ix2 j o)) * one
      = Cert.Spec.entry one x w bias aq bq ak bk av bv g n o := by
  -- the dense sum: column o of W1 is row o of the weight
  have hd : (∑ c : Fin 1024, x (ix3 g n c) * w1 w aq ak av (ix2 c ⟨o.val, by have := o.isLt; omega⟩))
      = ∑ c : Fin 1024, x (ix3 g n c) * w (ix2 o c) :=
    Finset.sum_congr rfl (fun c _ => congrArg (x (ix3 g n c) * ·) (w1_dense w aq ak av c o))
  -- the down-projection: rank column j of W1 is a row of a_q, a_k or a_v, or zero
  have hu : ∀ j : Fin 128,
      (∑ c : Fin 1024, x (ix3 g n c) * w1 w aq ak av (ix2 c ⟨3072 + j.val, by have := j.isLt; omega⟩))
        = (if h0 : j.val < 16 then ∑ c : Fin 1024, x (ix3 g n c) * aq (ix2 ⟨j.val, h0⟩ c)
           else if h1 : j.val < 32 then ∑ c : Fin 1024, x (ix3 g n c) * ak (ix2 ⟨j.val - 16, by omega⟩ c)
           else if h2 : j.val < 48 then ∑ c : Fin 1024, x (ix3 g n c) * av (ix2 ⟨j.val - 32, by omega⟩ c)
           else 0) := by
    intro j
    by_cases h0 : j.val < 16
    · rw [dif_pos h0]
      exact Finset.sum_congr rfl (fun c _ => by rw [w1_rank, dif_pos h0])
    · rw [dif_neg h0]
      by_cases h1 : j.val < 32
      · rw [dif_pos h1]
        exact Finset.sum_congr rfl (fun c _ => by rw [w1_rank, dif_neg h0, dif_pos h1])
      · rw [dif_neg h1]
        by_cases h2 : j.val < 48
        · rw [dif_pos h2]
          exact Finset.sum_congr rfl (fun c _ => by rw [w1_rank, dif_neg h0, dif_neg h1, dif_pos h2])
        · rw [dif_neg h2]
          exact Finset.sum_eq_zero (fun c _ => by rw [w1_rank, dif_neg h0, dif_neg h1, dif_neg h2, mul_zero])
  -- the up-projection: only the sixteen ranks of the column's third survive
  have hr := rank_collapse
    (fun j : Fin 128 => ∑ c : Fin 1024, x (ix3 g n c) * w1 w aq ak av (ix2 c ⟨3072 + j.val, by have := j.isLt; omega⟩))
    bq bk bv
    (fun r : Fin 16 => ∑ c : Fin 1024, x (ix3 g n c) * aq (ix2 r c))
    (fun r : Fin 16 => ∑ c : Fin 1024, x (ix3 g n c) * ak (ix2 r c))
    (fun r : Fin 16 => ∑ c : Fin 1024, x (ix3 g n c) * av (ix2 r c))
    hu o
  beta_reduce at hr
  rw [hd, hr]
  unfold Cert.Spec.entry Cert.Spec.dense Cert.Spec.lowRank
  first | rfl | (split_ifs <;> rfl)

end Cert.KernelIdeal.Operands

end
-- ==== Proof.RegionValue.lean ====
/-
  What the idealized kernel's run leaves in its result, as a function of the nine arguments.
  The body's one store is (dense part + bias row) + (rank part times the block-diagonal operand) times 1.0,
  where the dense part and the rank part are the left 3072 and the right 128 columns of the product the
  scratch holds. Read at row p and column q of block t, with the four staged arrays read back as the host
  lines built them, this is the specification's entry at row 512 t + p of the flattened activations, that
  is at (g, n) = ((512 t + p) / 2048, (512 t + p) % 2048), and column q: the 3072 dense columns of the
  side-by-side operand are the dense weight's rows, its last 128 columns are the stacked down-projections
  and zero, and against the block-diagonal operand only the sixteen ranks of column q's own third survive
  (every other term is a product with zero). The 32 blocks of 512 rows tile the 16384 rows, so the array
  the region writes is that function everywhere, and the reshape after the region turns row 2048 g + n
  back into (g, n).
-/
import proofs.«132580_j75041668595954_1_alg».proof.Proof.IdealBody
import proofs.«132580_j75041668595954_1_alg».proof.Proof.BodyValue
import proofs.«132580_j75041668595954_1_alg».proof.Proof.Operands
import proofs.«132580_j75041668595954_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.KernelIdeal.Around Cert.KernelIdeal.BodyValue Cert.KernelIdeal.Operands
open Idealize.ShloMosaic Idealize.ShloMosaic.TcCoe Idealize.ShloMosaic.Tactic Idealize.SL.Sem Idealize.ShloMosaic.StableHlo
open Idealize.ShloMosaic.ValueIdx
open Idealize.ShloMosaic.Pipeline (Dat)

/-! ## The body's store, as a term of the four input blocks -/

section Piece

variable {F : FTy → Type} [FloatOps F]

theorem hz2 : (![0, 0] : Fin 2 → Nat) = fun _ => 0 := funext fun a => by fin_cases a <;> rfl

/-- The one whole-scratch store covers the scratch. -/
theorem scratch_cover (w : S512x3200.Idx → Elt F .f32) (y : S512x3200.Idx) :
    ∃ pc ∈ ([⟨Rect.unit (s := S512x3200) ![0, 0] S512x3200.size inb_S512x3200_S512x3200_0_0, w⟩] : List (View.Piece (Elt F) S512x3200 .f32)), y ∈ pc.1.set :=
  View.cover_of_tiled _ S512x3200.size (by rfl) y

/-- What the body leaves in the output's buffer is its second payload of the two column ranges of its first
    payload (the product, read back from the scratch it was stored whole into) and of the two other operands. -/
theorem out0_4_eq (c : Dev nD) (i : grid0.Coords) (arg1 : Memref sig .tc .vmem S512x1024 .f32) (harg1 : arg1.IsWhole) (arg2 : Memref sig .tc .vmem S1024x3200 .bf16) (harg2 : arg2.IsWhole) (arg3 : Memref sig .tc .vmem S128x3072 .bf16) (harg3 : arg3.IsWhole) (arg4 : Memref sig .tc .vmem S1x3072 .f32) (harg4 : arg4.IsWhole) (arg5 : Memref sig .tc .vmem S512x3072 .f32) (harg5 : arg5.IsWhole) (arg6 : Memref sig .tc .vmem S512x3200 .f32) (harg6 : arg6.IsWhole)
    (x0 : Vec F S512x1024 .f32) (x1 : Vec F S1024x3200 .bf16) (x2 : Vec F S128x3072 .bf16) (x3 : Vec F S1x3072 .f32) :
    out0_4 c i arg1 harg1 arg2 harg2 arg3 harg3 arg4 harg4 arg5 harg5 arg6 harg6 x0 x1 x2 x3
      = k0_pay2 (View.ld (Val := Elt F) (k0_pay1 x0 x1) (Rect.unit (s := S512x3200) ![0, 0] S512x3072.size inb_S512x3200_S512x3072_0_0))
          (View.ld (Val := Elt F) (k0_pay1 x0 x1) (Rect.unit (s := S512x3200) ![0, 3072] S512x128.size inb_S512x3200_S512x128_0_3072)) x2 x3 := by
  unfold out0_4
  rw [View.read_writes_eq_canon _ _ _ (cover0_4 c i arg1 harg1 arg2 harg2 arg3 harg3 arg4 harg4 arg5 harg5 arg6 harg6 x0 x1 x2 x3)]
  unfold kernelRun0
  dsimp only
  sl_unfold_words
  rw [View.canon_unit_zero (S := S512x3072) hz2]
  rw [View.readCov_eq_canon_ld _ _ _ (scratch_cover _), View.readCov_eq_canon_ld _ _ _ (scratch_cover _)]
  rw [View.canon_unit_zero (S := S512x3200) hz2]
  simp only [View.readAt_eq_ld, harg1.read_unread, harg2.read_unread, harg3.read_unread, harg4.read_unread,
    View.ld_unit_zero (S := S512x1024) hz2, View.ld_unit_zero (S := S1024x3200) hz2, View.ld_unit_zero (S := S128x3072) hz2,
    View.ld_unit_zero (S := S1x3072) hz2]

end Piece

variable (m : (ℓ : Loc nD τ sig) → Buf (Elt Ideal) ℓ) (ρ : Dev nD → PrngReg)

/-! ## The arrays the windows stage, as the host lines built them -/

theorem V_rows (c : Dev nD) : (V m c main_v0 : S16384x1024.Idx → EReal)
    = shapeCast S16384x1024 (m ((c : Thread nD τ).loc main_arg0)) shapeCasts_S8x2048x1024_S16384x1024 := by
  dsimp only [V, V0]
  simp only [hostOps0, hostOps0_1, hostOps0_2, hostOps0_3, hostOps0_4, List.flatten_cons, List.flatten_nil, List.append_nil, List.cons_append, List.nil_append]
  after_results; rfl

theorem V_w1 (c : Dev nD) : (V m c main_v6 : S1024x3200.Idx → EReal)
    = w1 (m ((c : Thread nD τ).loc main_arg1)) (m ((c : Thread nD τ).loc main_arg3)) (m ((c : Thread nD τ).loc main_arg5)) (m ((c : Thread nD τ).loc main_arg7)) := by
  dsimp only [V, V0]
  simp only [hostOps0, hostOps0_1, hostOps0_2, hostOps0_3, hostOps0_4, List.flatten_cons, List.flatten_nil, List.append_nil, List.cons_append, List.nil_append]
  after_results; rfl

theorem V_up (c : Dev nD) : (V m c main_v16 : S128x3072.Idx → EReal)
    = upBd (m ((c : Thread nD τ).loc main_arg4)) (m ((c : Thread nD τ).loc main_arg6)) (m ((c : Thread nD τ).loc main_arg8)) := by
  dsimp only [V, V0]
  simp only [hostOps0, hostOps0_1, hostOps0_2, hostOps0_3, hostOps0_4, List.flatten_cons, List.flatten_nil, List.append_nil, List.cons_append, List.nil_append]
  after_results; rfl

theorem V_bias (c : Dev nD) : (V m c main_v17 : S1x3072.Idx → EReal)
    = shapeCast S1x3072 (m ((c : Thread nD τ).loc main_arg2)) shapeCasts_S3072_S1x3072 := by
  dsimp only [V, V0]
  simp only [hostOps0, hostOps0_1, hostOps0_2, hostOps0_3, hostOps0_4, List.flatten_cons, List.flatten_nil, List.append_nil, List.cons_append, List.nil_append]
  after_results; rfl

/-! ## The windows' blocks, by their literal types, read at an index -/

/-- Every window's block index over the grid: the activations and the output move down one block of 512 rows
    per point, the two operands and the bias stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := lt_of_lt_of_eq t.isLt (show cfg0.N = 32 from N_0)

abbrev xb (c : Dev nD) (t : Fin cfg0.N) : Vec Ideal S512x1024 .f32 := iblk m c 0 t
abbrev w1b (c : Dev nD) (t : Fin cfg0.N) : Vec Ideal S1024x3200 .bf16 := iblk m c 1 t
abbrev upb (c : Dev nD) (t : Fin cfg0.N) : Vec Ideal S128x3072 .bf16 := iblk m c 2 t
abbrev bb (c : Dev nD) (t : Fin cfg0.N) : Vec Ideal S1x3072 .f32 := iblk m c 3 t

/-- Row p of block t of the flattened activations is row 512 t + p of them, that is row
    ((512 t + p) / 2048, (512 t + p) % 2048) of the activations. -/
theorem xb_apply (c : Dev nD) (t : Fin cfg0.N) (p : Fin 512) (k : Fin 1024) :
    xb m c t (ix2 p k) = (m ((c : Thread nD τ).loc main_arg0)) (ix3 (⟨(512 * t.val + p.val) / 2048, by have := t_lt t; have := p.isLt; omega⟩ : Fin 8)
      (⟨(512 * t.val + p.val) % 2048, Nat.mod_lt _ (by decide)⟩ : Fin 2048) k) := by
  obtain ⟨e0, e1, -⟩ := idx_facts t
  have ht := t_lt t
  show V m c main_v0 (((cfg0.win 0).blk t).view.emb (ix2 p k)) = _
  have he : ((cfg0.win 0).blk t).view.emb (ix2 p k) = ix2 (⟨512 * t.val + p.val, by have := p.isLt; omega⟩ : Fin 16384) k := by
    funext a; apply Fin.ext
    match a with
    | ⟨0, _⟩ => show win0_0.index t (0 : Fin 2) * 512 + 1 * p.val = 512 * t.val + p.val; omega
    | ⟨1, _⟩ => show win0_0.index t (1 : Fin 2) * 1024 + 1 * k.val = k.val; omega
  rw [he, V_rows]
  exact xFlat_apply _ _ _

theorem w1b_apply (c : Dev nD) (t : Fin cfg0.N) (k : Fin 1024) (q : Fin 3200) :
    w1b m c t (ix2 k q) = w1 (m ((c : Thread nD τ).loc main_arg1)) (m ((c : Thread nD τ).loc main_arg3)) (m ((c : Thread nD τ).loc main_arg5)) (m ((c : Thread nD τ).loc main_arg7)) (ix2 k q) := by
  obtain ⟨-, -, e0, e1, -⟩ := idx_facts t
  show V m c main_v6 (((cfg0.win 1).blk t).view.emb (ix2 k q)) = _
  have he : ((cfg0.win 1).blk t).view.emb (ix2 k q) = ix2 k q := by
    funext a; apply Fin.ext
    match a with
    | ⟨0, _⟩ => show win0_1.index t (0 : Fin 2) * 1024 + 1 * k.val = k.val; omega
    | ⟨1, _⟩ => show win0_1.index t (1 : Fin 2) * 3200 + 1 * q.val = q.val; omega
  rw [he, V_w1]

theorem upb_apply (c : Dev nD) (t : Fin cfg0.N) (j : Fin 128) (q : Fin 3072) :
    upb m c t (ix2 j q) = upBd (m ((c : Thread nD τ).loc main_arg4)) (m ((c : Thread nD τ).loc main_arg6)) (m ((c : Thread nD τ).loc main_arg8)) (ix2 j q) := by
  obtain ⟨-, -, -, -, e0, e1, -⟩ := idx_facts t
  show V m c main_v16 (((cfg0.win 2).blk t).view.emb (ix2 j q)) = _
  have he : ((cfg0.win 2).blk t).view.emb (ix2 j q) = ix2 j q := by
    funext a; apply Fin.ext
    match a with
    | ⟨0, _⟩ => show win0_2.index t (0 : Fin 2) * 128 + 1 * j.val = j.val; omega
    | ⟨1, _⟩ => show win0_2.index t (1 : Fin 2) * 3072 + 1 * q.val = q.val; omega
  rw [he, V_up]

theorem bb_apply (c : Dev nD) (t : Fin cfg0.N) (q : Fin 3072) :
    bb m c t (ix2 (0 : Fin 1) q) = (m ((c : Thread nD τ).loc main_arg2)) (ix1 q) := by
  obtain ⟨-, -, -, -, -, -, e0, e1, -⟩ := idx_facts t
  show V m c main_v17 (((cfg0.win 3).blk t).view.emb (ix2 (0 : Fin 1) q)) = _
  have he : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 3072 + 1 * q.val = q.val; omega
  rw [he, V_bias]
  exact biasRow_apply _ _

/-! ## The array the region writes -/

/-- Row r of the 16384 x 3072 array is row (r / 2048, r % 2048) of the specification. -/
def rowsOut (c : Dev nD) : S16384x3072.Idx → EReal := fun i =>
  Cert.Spec.entry one (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (⟨(i 0).val / 2048, by have := idx2_lt0 i; omega⟩ : Fin 8) (⟨(i 0).val % 2048, Nat.mod_lt _ (by decide)⟩ : Fin 2048) (⟨(i 1).val, idx2_lt1 i⟩ : Fin 3072)

/-- What point t writes back is block t of that array. -/
theorem flushed4_eq (c : Dev nD) (t : Fin cfg0.N) :
    (dats m 0 c).flushed 4 t = ((cfg0.win 4).blk t).view.read (Elt Ideal) (rowsOut m c) := by
  show (cfg0.win 4).cut (grid0.coords t) ((dats m 0 c).after 4 t) = _
  rw [after0_4, out0_4_eq c (grid0.coords t) (st0_0 t) (hs0_0 t) (st0_1 t) (hs0_1 t) (st0_2 t) (hs0_2 t) (st0_3 t) (hs0_3 t) (st0_4 t) (hs0_4 t) scM0 (Memref.isWhole_whole _) (xb m c t) (w1b m c t) (upb m c t) (bb m c t)]
  funext j
  obtain ⟨p, q, rfl⟩ : ∃ (p : Fin 512) (q : Fin 3072), j = ix2 p q := ⟨j 0, j 1, eq_ix2 j⟩
  obtain ⟨-, -, -, -, -, -, -, -, e0, e1⟩ := idx_facts t
  have ht := t_lt t
  have he : ((cfg0.win 4).blk t).view.emb (ix2 p q) = ix2 (⟨512 * t.val + p.val, by have := p.isLt; omega⟩ : Fin 16384) q := by
    funext a; apply Fin.ext
    match a with
    | ⟨0, _⟩ => show win0_4.index t (0 : Fin 2) * 512 + 1 * p.val = 512 * t.val + p.val; omega
    | ⟨1, _⟩ => show win0_4.index t (1 : Fin 2) * 3072 + 1 * q.val = q.val; omega
  refine (block_entry (xb m c t) (w1b m c t) (upb m c t) (bb m c t) p q).trans ?_
  show _ = rowsOut m c (((cfg0.win 4).blk t).view.emb (ix2 p q))
  rw [he]
  simp only [xb_apply, w1b_apply, upb_apply, bb_apply]
  exact entry_eq one _ _ _ _ _ _ _ _ _ _ _ q

/-- An index of the array is in point t's block iff each coordinate is in the block's range on its axis. -/
theorem mem_blk4 (t : Fin cfg0.N) (i : S16384x3072.Idx) :
    i ∈ ((cfg0.win 4).blk t).view.set ↔ ∀ a : Fin 2, win0_4.index t a * S512x3072.size a ≤ (i a).val ∧ (i a).val < win0_4.index t a * S512x3072.size a + S512x3072.size a := by
  show i ∈ ((View.whole main_v18).slice (win0_4.rect t)).set ↔ _
  rw [View.set_slice_whole, Rect.mem_set_unit]
  exact Iff.rfl

/-- Row r lies in the block of point r / 512: the 32 blocks tile the array. -/
theorem cover4 (i : S16384x3072.Idx) : ∃ t : Fin cfg0.N, (cfg0.win 4).flush t = true ∧ i ∈ ((cfg0.win 4).blk t).view.set := by
  have hi0 : (i 0).val < 16384 := idx2_lt0 i
  have hi1 : (i 1).val < 3072 := idx2_lt1 i
  have hN : (i 0).val / 512 < cfg0.N := by rw [show cfg0.N = 32 from N_0]; omega
  obtain ⟨-, -, -, -, -, -, -, -, e0, e1⟩ := idx_facts ⟨(i 0).val / 512, hN⟩
  refine ⟨⟨(i 0).val / 512, hN⟩, flush0_4 _, ?_⟩
  rw [mem_blk4]
  intro a
  match a with
  | ⟨0, _⟩ =>
    show win0_4.index ⟨(i 0).val / 512, hN⟩ (0 : Fin 2) * 512 ≤ (i 0).val ∧ (i 0).val < win0_4.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, hN⟩ (1 : Fin 2) * 3072 ≤ (i 1).val ∧ (i 1).val < win0_4.index ⟨(i 0).val / 512, hN⟩ (1 : Fin 2) * 3072 + 3072
    rw [e1]; omega

/-- The array after the run. -/
theorem final4 (c : Dev nD) : (dats m 0 c).arrAt 4 cfg0.N = rowsOut m c :=
  (dats m 0 c).arrAt_eq_of_cover 4 (rowsOut m c) (fun t _ => flushed4_eq m c t) cover4

/-! ## The reshape after the region, and the run -/

/-- The result buffer ends at the specification of the nine arguments. -/
theorem result_eq (c : Dev nD) :
    Pipeline.afterTail₀ cfgs (dats m) 0 (V0 m) [hostOps1] c main_v19 = Cert.Spec.loraQkv one (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v19) = _
  after_results
  rw [(Pipeline.withArrays_arr spec0 launch0.win.arr_inj c _ _ 4).trans (final4 m c)]
  funext i
  obtain ⟨g, n, o, rfl⟩ : ∃ (g : Fin 8) (n : Fin 2048) (o : Fin 3072), i = ix3 g n o := ⟨i 0, i 1, i 2, eq_ix3 i⟩
  rw [Cert.Spec.loraQkv_apply]
  refine (unflatten_apply _ g n o).trans ?_
  unfold rowsOut
  have hg : (⟨(2048 * g.val + n.val) / 2048, by have := g.isLt; have := n.isLt; omega⟩ : Fin 8) = g := Fin.ext (by show (2048 * g.val + n.val) / 2048 = g.val; have := n.isLt; omega)
  have hn : (⟨(2048 * g.val + n.val) % 2048, Nat.mod_lt _ (by decide)⟩ : Fin 2048) = n := Fin.ext (by show (2048 * g.val + n.val) % 2048 = n.val; have := n.isLt; omega)
  show Cert.Spec.entry one _ _ _ _ _ _ _ _ _ (⟨(2048 * g.val + n.val) / 2048, _⟩ : Fin 8) (⟨(2048 * g.val + n.val) % 2048, _⟩ : Fin 2048) (⟨o.val, _⟩ : Fin 3072) = _
  rw [hg, hn]

/-- The idealized kernel's run: it terminates with the result at the specification and the arguments unchanged. -/
theorem run_value : θ_run defs (onTc (τ := τ) (main (F := Ideal))) ⟨m, fun _ => 0, ρ⟩ (fun r => ∀ c : Dev nD,
      r.2.mem ((c.tc : Thread nD τ).loc main_v19) = Cert.Spec.loraQkv one (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.RegionValue

end
-- ==== Proof.RefIsSpec.lean ====
/-
  The reference program's run ends at the specification. Its result buffer holds the composed term of the nine
  argument arrays; read at an index (g, n, o) that term is the dense projection of row (g, n) against row o of the
  weight, plus the bias at o, plus the o-th column of the concatenation of the three low-rank paths, each already
  multiplied by the literal 1.0. The column o of the concatenation lies in exactly one of the three thirds, and
  there it is the rank-16 path of that third at column o, o - 1024 or o - 2048: the three branches of the
  specification's entry. The literal is never evaluated: both sides carry it as the same bit pattern.
-/
import proofs.«132580_j75041668595954_1_alg».proof.Proof.Spec
import proofs.«132580_j75041668595954_1_alg».proof.Proof.Gen.ReferenceIdeal.Read
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.StableHlo
open scoped BigOperators

namespace Cert.ReferenceIdeal.RefValue

open Cert.ReferenceIdeal Cert.ReferenceIdeal.Gen Cert.ReferenceIdeal.Value Idealize.ShloMosaic.ValueIdx

/-- the literal 1.0 both programs scale the low-rank path by, never evaluated -/
abbrev one : EReal := Ideal.ofBits .f32 0x3F800000#32

/-- The dense stage at (g, n, o) is the sum over the 1024 features of x[g, n, c] · w[o, c]. -/
theorem dense_eq (x : FVec Ideal S8x2048x1024 .f32) (w : FVec Ideal S3072x1024 .f32)
    (g : Fin 8) (n : Fin 2048) (o : Fin 3072) :
    Read.val_main_v0 (F := Ideal) x w (ix3 g n o) = Cert.Spec.dense x w g n o := by
  rw [Read.val_main_v0_apply]
  unfold Cert.Spec.dense
  refine Finset.sum_congr rfl fun c _ => ?_
  have el : Read.lidx_main_v0 (ix3 g n o) c = ix3 g n c := funext fun a => Fin.ext (by
    match a with
    | ⟨0, _⟩ => rfl
    | ⟨1, _⟩ => rfl
    | ⟨2, _⟩ => rfl)
  have er : Read.ridx_main_v0 (ix3 g n o) c = ix2 o c := funext fun a => Fin.ext (by
    match a with
    | ⟨0, _⟩ => rfl
    | ⟨1, _⟩ => rfl)
  rw [el, er]

/-- The twice-broadcast bias at (g, n, o) is the bias at o. -/
theorem bias_eq (bias : FVec Ideal S3072 .f32) (g : Fin 8) (n : Fin 2048) (o : Fin 3072) :
    Read.val_main_v2 (F := Ideal) bias (ix3 g n o) = bias (ix1 o) := by
  rw [Read.val_main_v2_apply, Read.val_main_v1_apply]
  congr 1
  funext a
  match a with
  | ⟨0, _⟩ => rfl

/-- The projection down to the 16 ranks at (g, n, r) is the sum over the features of x[g, n, c] · a[r, c]. -/
theorem down_eq (x : FVec Ideal S8x2048x1024 .f32) (a : FVec Ideal S16x1024 .f32)
    (g : Fin 8) (n : Fin 2048) (r : Fin 16) :
    Read.val_main_v4 (F := Ideal) x a (ix3 g n r) = ∑ c : Fin 1024, x (ix3 g n c) * a (ix2 r c) := by
  rw [Read.val_main_v4_apply]
  refine Finset.sum_congr rfl fun c _ => ?_
  have el : Read.lidx_main_v4 (ix3 g n r) c = ix3 g n c := funext fun a => Fin.ext (by
    match a with
    | ⟨0, _⟩ => rfl
    | ⟨1, _⟩ => rfl
    | ⟨2, _⟩ => rfl)
  have er : Read.ridx_main_v4 (ix3 g n r) c = ix2 r c := funext fun a => Fin.ext (by
    match a with
    | ⟨0, _⟩ => rfl
    | ⟨1, _⟩ => rfl)
  rw [el, er]

/-- The projection back up at (g, n, d) is the specification's rank-16 path. -/
theorem up_eq (x : FVec Ideal S8x2048x1024 .f32) (a : FVec Ideal S16x1024 .f32) (b : FVec Ideal S1024x16 .f32)
    (g : Fin 8) (n : Fin 2048) (d : Fin 1024) :
    Read.val_main_v5 (F := Ideal) x a b (ix3 g n d) = Cert.Spec.lowRank x a b g n d := by
  rw [Read.val_main_v5_apply]
  unfold Cert.Spec.lowRank
  refine Finset.sum_congr rfl fun r _ => ?_
  have el : Read.lidx_main_v5 (ix3 g n d) r = ix3 g n r := funext fun a => Fin.ext (by
    match a with
    | ⟨0, _⟩ => rfl
    | ⟨1, _⟩ => rfl
    | ⟨2, _⟩ => rfl)
  have er : Read.ridx_main_v5 (ix3 g n d) r = ix2 d r := funext fun a => Fin.ext (by
    match a with
    | ⟨0, _⟩ => rfl
    | ⟨1, _⟩ => rfl)
  rw [el, er, down_eq]

/-- One third before concatenation: the rank-16 path times the literal. -/
theorem scaled_eq (x : FVec Ideal S8x2048x1024 .f32) (a : FVec Ideal S16x1024 .f32) (b : FVec Ideal S1024x16 .f32)
    (g : Fin 8) (n : Fin 2048) (d : Fin 1024) :
    Read.val_main_v7 (F := Ideal) x a b (ix3 g n d) = Cert.Spec.lowRank x a b g n d * one := by
  rw [Read.val_main_v7_apply, up_eq, Read.val_main_v6_apply, Read.val_main_cst_apply]
  rfl

/-- The three thirds are one function of their pair (a, b): the second and the third stage are the first's text. -/
theorem v11_eq (x : FVec Ideal S8x2048x1024 .f32) (a : FVec Ideal S16x1024 .f32) (b : FVec Ideal S1024x16 .f32) :
    Read.val_main_v11 (F := Ideal) x a b = Read.val_main_v7 (F := Ideal) x a b := rfl
theorem v15_eq (x : FVec Ideal S8x2048x1024 .f32) (a : FVec Ideal S16x1024 .f32) (b : FVec Ideal S1024x16 .f32) :
    Read.val_main_v15 (F := Ideal) x a b = Read.val_main_v7 (F := Ideal) x a b := rfl

/-- The concatenation at (g, n, o): the third that holds column o, at the column's offset inside it. -/
theorem concat_eq (x : FVec Ideal S8x2048x1024 .f32)
    (aq : FVec Ideal S16x1024 .f32) (bq : FVec Ideal S1024x16 .f32)
    (ak : FVec Ideal S16x1024 .f32) (bk : FVec Ideal S1024x16 .f32)
    (av : FVec Ideal S16x1024 .f32) (bv : FVec Ideal S1024x16 .f32)
    (g : Fin 8) (n : Fin 2048) (o : Fin 3072) :
    Read.val_main_v16 (F := Ideal) x aq bq ak bk av bv (ix3 g n o)
      = (if h0 : o.val < 1024 then Cert.Spec.lowRank x aq bq g n ⟨o.val, h0⟩
         else if h1 : o.val < 2048 then Cert.Spec.lowRank x ak bk g n ⟨o.val - 1024, by omega⟩
         else Cert.Spec.lowRank x av bv g n ⟨o.val - 2048, by have := o.isLt; omega⟩) * one := by
  have ho := o.isLt
  unfold Read.val_main_v16
  by_cases h0 : o.val < 1024
  · rw [dif_pos h0, ← scaled_eq]
    exact concatenate_apply_piece (2 : Fin S8x2048x3072.rank) _ _ (ix3 g n o) 0 (by show (0 : Nat) < 3; omega) S8x2048x1024 _ rfl rfl 0 rfl
      (ix3 g n ⟨o.val, h0⟩)
      (fun b hb => match b, hb with
        | ⟨0, _⟩, _ => rfl
        | ⟨1, _⟩, _ => rfl
        | ⟨2, _⟩, hb => absurd rfl hb)
      (by show 0 + o.val = o.val; omega)
  · rw [dif_neg h0]
    by_cases h1 : o.val < 2048
    · rw [dif_pos h1, ← scaled_eq, ← v11_eq x ak bk]
      exact concatenate_apply_piece (2 : Fin S8x2048x3072.rank) _ _ (ix3 g n o) 1 (by show (1 : Nat) < 3; omega) S8x2048x1024 _ rfl rfl 1024 rfl
        (ix3 g n ⟨o.val - 1024, by omega⟩)
        (fun b hb => match b, hb with
          | ⟨0, _⟩, _ => rfl
          | ⟨1, _⟩, _ => rfl
          | ⟨2, _⟩, hb => absurd rfl hb)
        (by show 1024 + (o.val - 1024) = o.val; omega)
    · rw [dif_neg h1, ← scaled_eq, ← v15_eq x av bv]
      exact concatenate_apply_piece (2 : Fin S8x2048x3072.rank) _ _ (ix3 g n o) 2 (by show (2 : Nat) < 3; omega) S8x2048x1024 _ rfl rfl 2048 rfl
        (ix3 g n ⟨o.val - 2048, by omega⟩)
        (fun b hb => match b, hb with
          | ⟨0, _⟩, _ => rfl
          | ⟨1, _⟩, _ => rfl
          | ⟨2, _⟩, hb => absurd rfl hb)
        (by show 2048 + (o.val - 2048) = o.val; omega)

/-- The reference run's result term, at the extended reals, is the specification of the nine argument arrays. -/
theorem result_eq (x : FVec Ideal S8x2048x1024 .f32) (w : FVec Ideal S3072x1024 .f32) (bias : FVec Ideal S3072 .f32)
    (aq : FVec Ideal S16x1024 .f32) (bq : FVec Ideal S1024x16 .f32)
    (ak : FVec Ideal S16x1024 .f32) (bk : FVec Ideal S1024x16 .f32)
    (av : FVec Ideal S16x1024 .f32) (bv : FVec Ideal S1024x16 .f32) :
    addf (addf (Host.dotGeneral dot_S8x2048x1024_S3072x1024_S8x2048x3072_2_1_01_0_n_n none (x) (w)) (broadcastInDim S8x2048x3072 ![0, 1, 2] bcast_S1x1x3072_S8x2048x3072_0_1_2 (broadcastInDim S1x1x3072 ![2] bcast_S3072_S1x1x3072_2 (bias)))) (concatenate S8x2048x3072 2 [⟨S8x2048x1024, (mulf (Host.dotGeneral dot_S8x2048x16_S1024x16_S8x2048x1024_2_1_01_0_n_n none (Host.dotGeneral dot_S8x2048x1024_S16x1024_S8x2048x16_2_1_01_0_n_n none (x) (aq)) (bq)) (broadcastInDim S8x2048x1024 ![] bcast_S_S8x2048x1024 (constant S_ .f32 0x3F800000#32)))⟩, ⟨S8x2048x1024, (mulf (Host.dotGeneral dot_S8x2048x16_S1024x16_S8x2048x1024_2_1_01_0_n_n none (Host.dotGeneral dot_S8x2048x1024_S16x1024_S8x2048x16_2_1_01_0_n_n none (x) (ak)) (bk)) (broadcastInDim S8x2048x1024 ![] bcast_S_S8x2048x1024 (constant S_ .f32 0x3F800000#32)))⟩, ⟨S8x2048x1024, (mulf (Host.dotGeneral dot_S8x2048x16_S1024x16_S8x2048x1024_2_1_01_0_n_n none (Host.dotGeneral dot_S8x2048x1024_S16x1024_S8x2048x16_2_1_01_0_n_n none (x) (av)) (bv)) (broadcastInDim S8x2048x1024 ![] bcast_S_S8x2048x1024 (constant S_ .f32 0x3F800000#32)))⟩] concatenates_S8x2048x1024_S8x2048x1024_S8x2048x1024_S8x2048x3072_d2)
    = Cert.Spec.loraQkv one x w bias aq bq ak bk av bv := by
  refine (Read.val_main_v17_eq (F := Ideal) x w bias aq bq ak bk av bv).trans ?_
  funext i
  obtain ⟨g, n, o, rfl⟩ : ∃ g n o, i = ix3 g n o := ⟨i 0, i 1, i 2, eq_ix3 i⟩
  rw [Read.val_main_v17_apply, Read.val_main_v3_apply, dense_eq, bias_eq, concat_eq, Cert.Spec.loraQkv_apply]
  rfl

/-- On every device, from any memory with zero counters, every weakly fair execution of the reference terminates
    with its result buffer at the specification of the arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = Cert.Spec.loraQkv one (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_eq ..), (h c).2⟩) (Value.run (F := Ideal) m ρ)

end Cert.ReferenceIdeal.RefValue

end
-- ==== Proof.lean ====
/-
  The fused low-rank QKV projection against its plain reference, over the extended reals.
  The kernel lays the dense weight and the three stacked down-projections side by side (the stack padded
  with zero rows to 128), multiplies each 512-row block of the flattened activations by that operand once,
  and multiplies the last 128 columns of the product by a 128 x 3072 block-diagonal operand holding each
  up-projection in its own third. The reference does the dense projection and the three rank-16 paths
  separately and concatenates. Entry by entry both are
    (sum_c x[g,n,c] w[o,c] + bias[o]) + (sum_{r<16} (sum_c x[g,n,c] a_s[r,c]) b_s[d,r]) * 1.0,
  o = 1024 s + d: in the kernel's rank sum over 128 terms every term outside the sixteen ranks of column
  o's own third is a product with a zero of the block-diagonal operand, and a product with zero is zero on
  the extended reals, so no finiteness is used; the sums have the same nesting on both sides, so no
  distributive law is used either. Both runs are posted at the one specification function.
  The frames: each program runs to the end, faults nowhere and leaves its nine arguments as launched; the
  two kernel programs' by the launch of their one kernel region between host lines, the reference's by its
  run with the result dropped. The idealized program is the word-level one read at the extended reals with
  no rewrite applied, so there is nothing to preserve.
-/
import proofs.«132580_j75041668595954_1_alg».proof.Defs
import proofs.«132580_j75041668595954_1_alg».proof.Proof.Gen.Kernel
import proofs.«132580_j75041668595954_1_alg».proof.Proof.Gen.KernelIdeal
import proofs.«132580_j75041668595954_1_alg».proof.Proof.Gen.ReferenceIdeal
import proofs.«132580_j75041668595954_1_alg».proof.Proof.Gen.Pre_finite_inputs
import proofs.«132580_j75041668595954_1_alg».proof.Proof.BitsBody
import proofs.«132580_j75041668595954_1_alg».proof.Proof.RegionValue
import proofs.«132580_j75041668595954_1_alg».proof.Proof.RefIsSpec
import Idealize.ShloMosaic.Adequacy
import Idealize.ShloMosaic.Init

noncomputable section

namespace Cert.Proof

open Idealize.ShloMosaic Idealize.SL.Sem

theorem frame_bits : Cert.frame_Kernel := fun m ρ _ => Cert.Kernel.Around.frame m ρ

theorem frame_ideal : Cert.frame_KernelIdeal := fun m ρ _ => Cert.KernelIdeal.Around.frame m ρ

theorem frame_ref : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nine arguments both idealized programs end with their result at the
    specification of those arguments. -/
theorem algebraic : Cert.algebraic_KernelIdeal_ReferenceIdeal := by
  intro m ρ m' ρ' _ hagree
  refine ⟨fun c => Cert.Spec.loraQkv Cert.KernelIdeal.BodyValue.one (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.RegionValue.run_value m ρ, ?_⟩
  refine (θ_run Cert.ReferenceIdeal.defs _ _).mono (fun _ h c => ⟨(h c).1.trans ?_, (h c).2⟩)
    (Cert.ReferenceIdeal.RefValue.run_spec m' ρ')
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
